-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x256x256x256 : Shape := ⟨5, ![2, 1, 256, 256, 256]⟩
abbrev S_ : Shape := ⟨0, ![]⟩

class Facts : Prop where
  bcast_S_S2x1x256x256x256 : S_.BroadcastsInDim S2x1x256x256x256 (![] : Fin 0 → Fin S2x1x256x256x256.rank)
  reducesTo_S2x1x256x256x256_S_d0_1_2_3_4 : S2x1x256x256x256.ReducesTo [0, 1, 2, 3, 4] S_
  h_S_ : 0 < S_.numel

variable [Facts]

def fn {F : FTy → Type} [FloatOps F] (main_arg0 : FVec F S2x1x256x256x256 .f32) : IVec S_ 1 :=
  let main_v0 : FVec F S2x1x256x256x256 .f32 := Host.absf main_arg0
  let main_cst : FVec F S_ .f32 := constant S_ .f32 0x7F800000#32
  let main_v1 : FVec F S2x1x256x256x256 .f32 := broadcastInDim S2x1x256x256x256 ![] bcast_S_S2x1x256x256x256 main_cst
  let main_v2 : IVec S2x1x256x256x256 1 := cmpf .olt main_v0 main_v1
  let main_c : IVec S_ 1 := constantI S_ 1 1#1
  let main_v3 : IVec S_ 1 := (fun x v => Host.reduce IntOp.andi x v reducesTo_S2x1x256x256x256_S_d0_1_2_3_4 h_S_) main_v2 main_c
  main_v3
-- ==== Kernel.lean ====
abbrev S2x1x256x256x256 : Shape := ⟨5, ![2, 1, 256, 256, 256]⟩
abbrev S2x1x1 : Shape := ⟨3, ![2, 1, 1]⟩
abbrev S1x1x1 : Shape := ⟨3, ![1, 1, 1]⟩
abbrev S2x18x256x256 : Shape := ⟨4, ![2, 18, 256, 256]⟩
abbrev S2 : Shape := ⟨1, ![2]⟩
abbrev S256x256 : Shape := ⟨2, ![256, 256]⟩
abbrev S1 : Shape := ⟨1, ![1]⟩
abbrev S_ : Shape := ⟨0, ![]⟩
abbrev S1x18x256x256 : Shape := ⟨4, ![1, 18, 256, 256]⟩
abbrev S18x256x256 : Shape := ⟨3, ![18, 256, 256]⟩
abbrev S1x1x18x256x256 : Shape := ⟨5, ![1, 1, 18, 256, 256]⟩
abbrev S1x17x256x256 : Shape := ⟨4, ![1, 17, 256, 256]⟩
abbrev S17x256x256 : Shape := ⟨3, ![17, 256, 256]⟩
abbrev S1x256x256 : Shape := ⟨3, ![1, 256, 256]⟩
abbrev S256 : Shape := ⟨1, ![256]⟩
abbrev S256x1 : Shape := ⟨2, ![256, 1]⟩
abbrev S1x1 : Shape := ⟨2, ![1, 1]⟩

abbrev nBuf : Space → Nat
  | .hbm => 8
  | .vmem => 4
  | .smem => 0
  | _ => 0

abbrev bufTy : (tb : Table) → Fin (tcTables nBuf tb) → BufTy
  | .hbm, ⟨0, _⟩ => ⟨S2x1x256x256x256, .f32⟩
  | .hbm, ⟨1, _⟩ => ⟨S2x1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1x1, .f32⟩
  | .local _ .vmem, ⟨1, _⟩ => ⟨S1x1x1, .f32⟩
  | .local _ .vmem, ⟨2, _⟩ => ⟨S2x18x256x256, .f32⟩
  | .local _ .vmem, ⟨3, _⟩ => ⟨S256x256, .f32⟩
  | _, _ => ⟨S2x1x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch2 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 15], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 5 → Nat :=
  let arg0 : BitVec 32 := BitVec.ofNat 32 (i 0).val
  let c0_i32_35 : BitVec 32 := 0#32
  let c0_i32_41 : BitVec 32 := 0#32
  let c0_i32_42 : BitVec 32 := 0#32
  let c0_i32_43 : BitVec 32 := 0#32
  ![arg0.toNat, 0, 0, 0, 0]
def k0_off2 (i : grid0.Coords) : Fin 5 → Nat :=
  let arg0 : BitVec 32 := BitVec.ofNat 32 (i 0).val
  let c0_i32_44 : BitVec 32 := 0#32
  let c17_i32_50 : BitVec 32 := 17#32
  let c0_i32_51 : BitVec 32 := 0#32
  let c0_i32_52 : BitVec 32 := 0#32
  ![arg0.toNat, 0, 17, 0, 0]
def k0_off3 (i : grid0.Coords) : Fin 1 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off4 (i : grid0.Coords) : Fin 4 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  let c0_i32_8 : BitVec 32 := 0#32
  ![v12.toNat, 0, 0, 0]
def k0_off5 (i : grid0.Coords) : Fin 5 → Nat :=
  let arg0 : BitVec 32 := BitVec.ofNat 32 (i 0).val
  let c0_i32_5 : BitVec 32 := 0#32
  let arg1 : BitVec 32 := BitVec.ofNat 32 (i 1).val
  let c17_i32 : BitVec 32 := 17#32
  let v13 : BitVec 32 := Scalar.muli arg1 c17_i32
  let c0_i32_9 : BitVec 32 := 0#32
  let c0_i32_10 : BitVec 32 := 0#32
  ![arg0.toNat, 0, v13.toNat, 0, 0]
def k0_cond2 (i : grid0.Coords) : BitVec 1 :=
  let arg1 : BitVec 32 := BitVec.ofNat 32 (i 1).val
  let c0_i32_12 : BitVec 32 := 0#32
  let v21 : BitVec 1 := Scalar.cmpi .sgt arg1 c0_i32_12
  let c1_i32_13 : BitVec 32 := 1#32
  let v22 : BitVec 32 := Scalar.addi arg1 c1_i32_13
  let c15_i32 : BitVec 32 := 15#32
  let v23 : BitVec 1 := Scalar.cmpi .slt v22 c15_i32
  let v24 : BitVec 1 := Scalar.andi v21 v23
  let v25 : BitVec 32 := Scalar.extui v24
  let c0_i32_14 : BitVec 32 := 0#32
  let v26 : BitVec 1 := Scalar.cmpi .ne v25 c0_i32_14
  v26

def k0_off6 (i : grid0.Coords) : Fin 1 → Nat :=
  let c1_i32_11 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v20 : BitVec 32 := Scalar.subi c1_i32_11 v12
  ![v20.toNat]
def k0_off7 (i : grid0.Coords) : Fin 4 → Nat :=
  let c1_i32_11 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v20 : BitVec 32 := Scalar.subi c1_i32_11 v12
  let c0_i32_38 : BitVec 32 := 0#32
  let c0_i32_39 : BitVec 32 := 0#32
  let c0_i32_40 : BitVec 32 := 0#32
  ![v20.toNat, 0, 0, 0]
def k0_off8 (i : grid0.Coords) : Fin 5 → Nat :=
  let arg0 : BitVec 32 := BitVec.ofNat 32 (i 0).val
  let c0_i32_37 : BitVec 32 := 0#32
  let arg1 : BitVec 32 := BitVec.ofNat 32 (i 1).val
  let c1_i32_35 : BitVec 32 := 1#32
  let v74 : BitVec 32 := Scalar.addi arg1 c1_i32_35
  let c17_i32_36 : BitVec 32 := 17#32
  let v75 : BitVec 32 := Scalar.muli v74 c17_i32_36
  let c0_i32_41 : BitVec 32 := 0#32
  let c0_i32_42 : BitVec 32 := 0#32
  ![arg0.toNat, 0, v75.toNat, 0, 0]
def k0_off9 (i : grid0.Coords) : Fin 4 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v27 : Index := Scalar.indexCast v12
  let c0 : Index := 0#32
  let c0_15 : Index := 0#32
  let c0_16 : Index := 0#32
  ![v27.toNat, 0, 0, 0]
def k0_off10 (i : grid0.Coords) : Fin 4 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v30 : Index := Scalar.indexCast v12
  let c1 : Index := 1#32
  let c0_17 : Index := 0#32
  let c0_18 : Index := 0#32
  ![v30.toNat, 1, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

class Facts₀ : Prop where
  inb_S2_S1_0 : ∀ a, (![0] : Fin 1 → Nat) a + S1.size a ≤ S2.size a
  squeezes_S1_S_ : S1.Squeezes S_
  inb_S2x18x256x256_S1x18x256x256_0_0_0_0 : ∀ a, (![0, 0, 0, 0] : Fin 4 → Nat) a + S1x18x256x256.size a ≤ S2x18x256x256.size a
  squeezes_S1x18x256x256_S18x256x256 : S1x18x256x256.Squeezes S18x256x256
  squeezes_S1x1x18x256x256_S18x256x256 : S1x1x18x256x256.Squeezes S18x256x256
  inb_S2_S1_1 : ∀ a, (![1] : Fin 1 → Nat) a + S1.size a ≤ S2.size a
  inb_S2x18x256x256_S1x18x256x256_1_0_0_0 : ∀ a, (![1, 0, 0, 0] : Fin 4 → Nat) a + S1x18x256x256.size a ≤ S2x18x256x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S1x17x256x256 : 0 < S1x17x256x256.numel
  shapeCasts_S1x17x256x256_S17x256x256 : S1x17x256x256.ShapeCasts S17x256x256
  rotates_S17x256x256_d1 : S17x256x256.Rotates 1 none
  rotates_S17x256x256_d2 : S17x256x256.Rotates 2 none
  iota_S1x256x256_d1_w32 : S1x256x256.Iotas .tc 32 [1]
  iota_S1x256x256_d2_w32 : S1x256x256.Iotas .tc 32 [2]
  natLt_1_32 : 1 < 32
  broadcasts_S1x256x256_S17x256x256 : S1x256x256.Broadcasts S17x256x256
  reduces_S17x256x256_S256x256 : S17x256x256.Reduces [0] S256x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hcc0_scratch1 : 2 + S2.numel ≤ 4
  hrank0 : 0 < grid0.rank
  k0_off1_inb : ∀ i : grid0.Coords, ∀ (k0_h1 : k0_cond1 i = 1#1), ∀ a, (k0_off1 i) a + S1x1x18x256x256.size a ≤ S2x1x256x256x256.size a
  k0_off2_inb : ∀ i : grid0.Coords, ∀ (k0_h1 : k0_cond1 i = 1#1), ∀ a, (k0_off2 i) a + S1x1x18x256x256.size a ≤ S2x1x256x256x256.size a
  k0_off3_inb : ∀ i : grid0.Coords, ∀ a, (k0_off3 i) a + S1.size a ≤ S2.size a
  k0_off4_inb : ∀ i : grid0.Coords, ∀ a, (k0_off4 i) a + S1x18x256x256.size a ≤ S2x18x256x256.size a
  k0_off5_inb : ∀ i : grid0.Coords, ∀ a, (k0_off5 i) a + S1x1x18x256x256.size a ≤ S2x1x256x256x256.size a
  k0_off6_inb : ∀ i : grid0.Coords, ∀ (k0_h2 : k0_cond2 i = 1#1), ∀ a, (k0_off6 i) a + S1.size a ≤ S2.size a
  k0_off7_inb : ∀ i : grid0.Coords, ∀ (k0_h2 : k0_cond2 i = 1#1), ∀ a, (k0_off7 i) a + S1x18x256x256.size a ≤ S2x18x256x256.size a
  k0_off8_inb : ∀ i : grid0.Coords, ∀ (k0_h2 : k0_cond2 i = 1#1), ∀ a, (k0_off8 i) a + S1x1x18x256x256.size a ≤ S2x1x256x256x256.size a
  k0_off9_inb : ∀ i : grid0.Coords, ∀ a, (k0_off9 i) a + S1x17x256x256.size a ≤ S2x18x256x256.size a
  k0_off10_inb : ∀ i : grid0.Coords, ∀ a, (k0_off10 i) a + S1x17x256x256.size a ≤ S2x18x256x256.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x1x1.size a ≤ S2x1x1.size a
  hwx0_0 : ∀ i : grid0.Coords, EltTy.bits .f32 = 32 ∨ (Rect.block (s := S2x1x1) S1x1x1.size (cc0_transform_1 i) (hinb0_0 i)).WholeWords (EltTy.packing .f32)

variable [Facts₀]

abbrev cc0_scratch1 : DmaSems sig S2 := SemArray.consecutive 2 S2 hcc0_scratch1

abbrev win0_0 : Pipeline.Window sig grid0 :=
  Pipeline.Window.ofSpec (Memref.whole main_v0) S1x1x1.size cc0_transform_1 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x1x256x256x256 : Shape := ⟨5, ![2, 1, 256, 256, 256]⟩
abbrev S2x256x256x256 : Shape := ⟨4, ![2, 256, 256, 256]⟩
abbrev S2x255x255x255 : Shape := ⟨4, ![2, 255, 255, 255]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2x1x256x256x256, .f32⟩
  | .hbm, ⟨1, _⟩ => ⟨S2x256x256x256, .f32⟩
  | .hbm, ⟨2, _⟩ => ⟨S2x255x255x255, .f32⟩
  | .hbm, ⟨3, _⟩ => ⟨S2x255x255x255, .f32⟩
  | .hbm, ⟨4, _⟩ => ⟨S2x255x255x255, .f32⟩
  | .hbm, ⟨5, _⟩ => ⟨S_, .f32⟩
  | .hbm, ⟨6, _⟩ => ⟨S2x255x255x255, .f32⟩
  | .hbm, ⟨7, _⟩ => ⟨S2x255x255x255, .f32⟩
  | .hbm, ⟨8, _⟩ => ⟨S2x255x255x255, .f32⟩
  | .hbm, ⟨9, _⟩ => ⟨S2x255x255x255, .f32⟩
  | .hbm, ⟨10, _⟩ => ⟨S_, .f32⟩
  | .hbm, ⟨11, _⟩ => ⟨S2x255x255x255, .f32⟩
  | .hbm, ⟨12, _⟩ => ⟨S2x255x255x255, .f32⟩
  | .hbm, ⟨13, _⟩ => ⟨S2x255x255x255, .f32⟩
  | .hbm, ⟨14, _⟩ => ⟨S2x255x255x255, .f32⟩
  | .hbm, ⟨15, _⟩ => ⟨S_, .f32⟩
  | .hbm, ⟨16, _⟩ => ⟨S2x255x255x255, .f32⟩
  | .hbm, ⟨17, _⟩ => ⟨S2x255x255x255, .f32⟩
  | .hbm, ⟨18, _⟩ => ⟨S2x255x255x255, .f32⟩
  | .hbm, ⟨19, _⟩ => ⟨S2x255x255x255, .f32⟩
  | .hbm, ⟨20, _⟩ => ⟨S2x255x255x255, .f32⟩
  | .hbm, ⟨21, _⟩ => ⟨S2x255x255x255, .f32⟩
  | .hbm, ⟨22, _⟩ => ⟨S2x255x255x255, .f32⟩
  | .hbm, ⟨23, _⟩ => ⟨S2x255x255x255, .f32⟩
  | .hbm, ⟨24, _⟩ => ⟨S_, .f32⟩
  | .hbm, ⟨25, _⟩ => ⟨S2x255x255x255, .f32⟩
  | .hbm, ⟨26, _⟩ => ⟨S2x255x255x255, .f32⟩
  | .hbm, ⟨27, _⟩ => ⟨S2x255x255x255, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S2x1x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  shapeCasts_S2x1x256x256x256_S2x256x256x256 : S2x1x256x256x256.ShapeCasts S2x256x256x256
  slices_S2x256x256x256_S2x255x255x255_0_0_0_0 : S2x256x256x256.Slices ![0, 0, 0, 0] S2x255x255x255
  slices_S2x256x256x256_S2x255x255x255_0_1_0_0 : S2x256x256x256.Slices ![0, 1, 0, 0] S2x255x255x255
  bcast_S_S2x255x255x255 : S_.BroadcastsInDim S2x255x255x255 (![] : Fin 0 → Fin S2x255x255x255.rank)
  slices_S2x256x256x256_S2x255x255x255_0_0_1_0 : S2x256x256x256.Slices ![0, 0, 1, 0] S2x255x255x255
  slices_S2x256x256x256_S2x255x255x255_0_0_0_1 : S2x256x256x256.Slices ![0, 0, 0, 1] S2x255x255x255
  reducesTo_S2x255x255x255_S_d0_1_2_3 : S2x255x255x255.ReducesTo [0, 1, 2, 3] S_
  h_S_ : 0 < S_.numel

variable [Facts₀]

class Facts : Prop extends Facts₀ where

variable [Facts]
-- ==== Proof.Spec.lean ====
import Idealize.ShloMosaic.PureOps.Ideal
import Mathlib.Algebra.BigOperators.Fin
import Mathlib.Algebra.BigOperators.Group.Finset.Defs
import Mathlib.Algebra.BigOperators.Group.Finset.Sigma
import Mathlib.Data.Fintype.BigOperators
import Mathlib.Logic.Equiv.Fin.Basic
import Mathlib.Analysis.Real.Sqrt

/-!
The eikonal loss on a 2 x 256^3 grid, over the reals: the mean over the 2 * 255^3 interior points of
| (norm of the forward differences scaled by 256) - 1 |.  Two arrangements of the same number are stated here.

* Kcanon: per batch b, per tile k of 17 depth rows, per row d of the tile, the full 256 x 256 plane of
  |256 * sqrt(dd^2 + dh^2 + dw^2) - 1| with cyclic row and column neighbours, the wrapped last row and column
  cut off by a 0/1 mask; summed, then divided by 255 * 255 and by 2 * 255.
* Rcanon: the 255^3 interior points per batch of |sqrt((256 dd)^2 + (256 dh)^2 + (256 dw)^2) - 1|, summed and
  divided by 2 * 255^3.

They agree because sqrt(256^2 s) = 256 sqrt(s) for s >= 0, the masked-out terms are zero, the unmasked cyclic
neighbours are the true neighbours, the depths 17 k + d (k < 15, d < 17) enumerate the depths below 255, and
65025 * 510 = 33162750.
-/

noncomputable section

namespace Eik

open Idealize.ShloMosaic

/-- A field on the grid: batch, depth, row, column. -/
abbrev Field : Type := Fin 2 → Fin 256 → Fin 256 → Fin 256 → ℝ

/-- The cyclic successor of a row or column index. -/
def nx (i : Fin 256) : Fin 256 := ⟨(i.val + 1) % 256, Nat.mod_lt _ (by decide)⟩

/-- Depth 17 k + d: row d (of 18, one row of halo) of tile k. -/
def dep (k : Fin 15) (d : Fin 18) : Fin 256 := ⟨17 * k.val + d.val, by have := k.isLt; have := d.isLt; omega⟩

/-- The kernel's summand at depth d with depth-neighbour dn: cyclic row and column neighbours, the scale
    taken out of the root, the wrapped row and column masked to zero. -/
def termK (x : Field) (b : Fin 2) (d dn h w : Fin 256) : ℝ :=
  |256 * Real.sqrt ((x b d h w - x b dn h w) * (x b d h w - x b dn h w)
      + (x b d h w - x b d (nx h) w) * (x b d h w - x b d (nx h) w)
      + (x b d h w - x b d h (nx w)) * (x b d h w - x b d h (nx w))) - 1|
    * (if h.val < 255 ∧ w.val < 255 then 1 else 0)

/-- The kernel's arrangement: rows and columns outermost (the accumulator plane is reduced last), then tiles,
    then the rows of a tile. -/
def Kcanon (x : Field) : ℝ :=
  ((∑ b : Fin 2, ∑ h : Fin 256, ∑ w : Fin 256, ∑ k : Fin 15, ∑ d : Fin 17,
      termK x b (dep k d.castSucc) (dep k d.succ) h w) / 65025) / 510

/-- An interior index as a grid index, and its successor. -/
def emb (i : Fin 255) : Fin 256 := ⟨i.val, by have := i.isLt; omega⟩
def embS (i : Fin 255) : Fin 256 := ⟨i.val + 1, by have := i.isLt; omega⟩

/-- The reference's summand at an interior point: each forward difference scaled by 256 before squaring. -/
def termR (x : Field) (b : Fin 2) (d h w : Fin 255) : ℝ :=
  |Real.sqrt (((x b (emb d) (emb h) (emb w) - x b (embS d) (emb h) (emb w)) * 256) * ((x b (emb d) (emb h) (emb w) - x b (embS d) (emb h) (emb w)) * 256)
      + ((x b (emb d) (emb h) (emb w) - x b (emb d) (embS h) (emb w)) * 256) * ((x b (emb d) (emb h) (emb w) - x b (emb d) (embS h) (emb w)) * 256)
      + ((x b (emb d) (emb h) (emb w) - x b (emb d) (emb h) (embS w)) * 256) * ((x b (emb d) (emb h) (emb w) - x b (emb d) (emb h) (embS w)) * 256)) - 1|

/-- The reference's arrangement: the mean over all interior points. -/
def Rcanon (x : Field) : ℝ :=
  (∑ b : Fin 2, ∑ d : Fin 255, ∑ h : Fin 255, ∑ w : Fin 255, termR x b d h w) / 33162750

/-- The cyclic successor of an index below 255 does not wrap: it is the true successor. -/
private theorem nx_emb (i : Fin 255) : nx (emb i) = embS i := by
  apply Fin.ext
  show (i.val + 1) % 256 = i.val + 1
  exact Nat.mod_eq_of_lt (by have := i.isLt; omega)

/-- Outside the mask (row 255 or column 255) the kernel's summand is zero. -/
private theorem termK_mask (x : Field) (b : Fin 2) (d dn h w : Fin 256)
    (hm : ¬ (h.val < 255 ∧ w.val < 255)) : termK x b d dn h w = 0 := by
  unfold termK
  rw [if_neg hm, mul_zero]

/-- The scale 256 comes out of the root: sqrt((256 a)^2 + (256 b)^2 + (256 c)^2) = 256 sqrt(a^2 + b^2 + c^2),
    because the sum of squares is nonnegative and sqrt(256 * 256) = 256. -/
private theorem sqrt_scale (a b c : ℝ) :
    Real.sqrt ((a * 256) * (a * 256) + (b * 256) * (b * 256) + (c * 256) * (c * 256))
      = 256 * Real.sqrt (a * a + b * b + c * c) := by
  have hs : 0 ≤ a * a + b * b + c * c := by
    have ha := mul_self_nonneg a
    have hb := mul_self_nonneg b
    have hc := mul_self_nonneg c
    linarith
  have hr : (a * 256) * (a * 256) + (b * 256) * (b * 256) + (c * 256) * (c * 256)
      = (256 * 256) * (a * a + b * b + c * c) := by ring
  rw [hr, Real.sqrt_mul' _ hs, Real.sqrt_mul_self (by norm_num : (0 : ℝ) ≤ 256)]

/-- At an interior point, with the true depth neighbour, the kernel's summand is the reference's. -/
private theorem termK_interior (x : Field) (b : Fin 2) (d h w : Fin 255) :
    termK x b (emb d) (embS d) (emb h) (emb w) = termR x b d h w := by
  have hm : (emb h).val < 255 ∧ (emb w).val < 255 := ⟨h.isLt, w.isLt⟩
  unfold termK termR
  rw [if_pos hm, mul_one, nx_emb, nx_emb, sqrt_scale]

/-- A sum over the 256 indices whose last term vanishes is the sum over the 255 interior indices. -/
private theorem sum_restrict (f : Fin 256 → ℝ) (h0 : f (Fin.last 255) = 0) :
    ∑ i : Fin 256, f i = ∑ i : Fin 255, f (emb i) := by
  have hc : ∑ i : Fin 256, f i = ∑ i : Fin 255, f (Fin.castSucc i) + f (Fin.last 255) :=
    Fin.sum_univ_castSucc (n := 255) f
  rw [hc, h0, add_zero]
  rfl

/-- The pairs (tile k < 15, row d < 17) are the depths below 255, by (k, d) -> 17 k + d. -/
private def depEquiv : Fin 15 × Fin 17 ≃ Fin 255 := finProdFinEquiv (m := 15) (n := 17)

private theorem dep_castSucc (k : Fin 15) (d : Fin 17) :
    dep k d.castSucc = emb (depEquiv (k, d)) := by
  apply Fin.ext
  show 17 * k.val + d.val = d.val + 17 * k.val
  exact Nat.add_comm _ _

private theorem dep_succ (k : Fin 15) (d : Fin 17) :
    dep k d.succ = embS (depEquiv (k, d)) := by
  apply Fin.ext
  show 17 * k.val + (d.val + 1) = d.val + 17 * k.val + 1
  omega

/-- Summing over tiles and the rows of a tile is summing over the depths below 255, each with its
    true successor as depth neighbour. -/
private theorem sum_depth (g : Fin 256 → Fin 256 → ℝ) :
    ∑ k : Fin 15, ∑ d : Fin 17, g (dep k d.castSucc) (dep k d.succ)
      = ∑ i : Fin 255, g (emb i) (embS i) := by
  calc ∑ k : Fin 15, ∑ d : Fin 17, g (dep k d.castSucc) (dep k d.succ)
      = ∑ p : Fin 15 × Fin 17, g (dep p.1 p.2.castSucc) (dep p.1 p.2.succ) :=
        (Fintype.sum_prod_type' (fun (k : Fin 15) (d : Fin 17) => g (dep k d.castSucc) (dep k d.succ))).symm
    _ = ∑ p : Fin 15 × Fin 17, g (emb (depEquiv p)) (embS (depEquiv p)) := by
        apply Finset.sum_congr rfl
        rintro ⟨k, d⟩ _
        rw [dep_castSucc, dep_succ]
    _ = ∑ i : Fin 255, g (emb i) (embS i) :=
        Equiv.sum_comp depEquiv (fun i => g (emb i) (embS i))

/-- The two arrangements are one number. -/
theorem canon_eq (x : Field) : Kcanon x = Rcanon x := by
  have hsum : (∑ b : Fin 2, ∑ h : Fin 256, ∑ w : Fin 256, ∑ k : Fin 15, ∑ d : Fin 17,
      termK x b (dep k d.castSucc) (dep k d.succ) h w)
      = ∑ b : Fin 2, ∑ d : Fin 255, ∑ h : Fin 255, ∑ w : Fin 255, termR x b d h w := by
    apply Finset.sum_congr rfl
    intro b _
    -- tiles and rows of a tile are the depths below 255
    have h1 : ∀ h w : Fin 256,
        (∑ k : Fin 15, ∑ d : Fin 17, termK x b (dep k d.castSucc) (dep k d.succ) h w)
          = ∑ i : Fin 255, termK x b (emb i) (embS i) h w :=
      fun h w => sum_depth (fun d dn => termK x b d dn h w)
    -- column 255 is masked
    have h2 : ∀ h : Fin 256,
        (∑ w : Fin 256, ∑ i : Fin 255, termK x b (emb i) (embS i) h w)
          = ∑ w : Fin 255, ∑ i : Fin 255, termK x b (emb i) (embS i) h (emb w) := by
      intro h
      apply sum_restrict (fun w => ∑ i : Fin 255, termK x b (emb i) (embS i) h w)
      apply Finset.sum_eq_zero
      intro i _
      apply termK_mask
      intro hc
      exact absurd hc.2 (Nat.lt_irrefl 255)
    -- row 255 is masked
    have h3 : (∑ h : Fin 256, ∑ w : Fin 255, ∑ i : Fin 255, termK x b (emb i) (embS i) h (emb w))
        = ∑ h : Fin 255, ∑ w : Fin 255, ∑ i : Fin 255,
            termK x b (emb i) (embS i) (emb h) (emb w) := by
      apply sum_restrict
        (fun h => ∑ w : Fin 255, ∑ i : Fin 255, termK x b (emb i) (embS i) h (emb w))
      apply Finset.sum_eq_zero
      intro w _
      apply Finset.sum_eq_zero
      intro i _
      apply termK_mask
      intro hc
      exact absurd hc.1 (Nat.lt_irrefl 255)
    calc (∑ h : Fin 256, ∑ w : Fin 256, ∑ k : Fin 15, ∑ d : Fin 17,
            termK x b (dep k d.castSucc) (dep k d.succ) h w)
        = ∑ h : Fin 256, ∑ w : Fin 256, ∑ i : Fin 255, termK x b (emb i) (embS i) h w := by
          apply Finset.sum_congr rfl
          intro h _
          apply Finset.sum_congr rfl
          intro w _
          exact h1 h w
      _ = ∑ h : Fin 256, ∑ w : Fin 255, ∑ i : Fin 255, termK x b (emb i) (embS i) h (emb w) := by
          apply Finset.sum_congr rfl
          intro h _
          exact h2 h
      _ = ∑ h : Fin 255, ∑ w : Fin 255, ∑ i : Fin 255,
            termK x b (emb i) (embS i) (emb h) (emb w) := h3
      _ = ∑ h : Fin 255, ∑ w : Fin 255, ∑ i : Fin 255, termR x b i h w := by
          apply Finset.sum_congr rfl
          intro h _
          apply Finset.sum_congr rfl
          intro w _
          apply Finset.sum_congr rfl
          intro i _
          exact termK_interior x b i h w
      -- the depth sum moves outermost
      _ = ∑ h : Fin 255, ∑ i : Fin 255, ∑ w : Fin 255, termR x b i h w := by
          apply Finset.sum_congr rfl
          intro h _
          exact Finset.sum_comm
      _ = ∑ i : Fin 255, ∑ h : Fin 255, ∑ w : Fin 255, termR x b i h w := Finset.sum_comm
  unfold Kcanon Rcanon
  rw [hsum, div_div]
  norm_num

/-- A real field as an array of extended reals of shape [2, 1, 256, 256, 256]. -/
def lift (x : Field) : (⟨5, ![2, 1, 256, 256, 256]⟩ : Shape).Idx → EReal :=
  fun i => ((x (i 0) (i 2) (i 3) (i 4) : ℝ) : EReal)

end Eik

end
-- ==== Proof.Ring0.lean ====
import proofs.«407983_j88124138979534_4_alg».proof.Proof.Gen.KernelIdeal.Frame
import proofs.«407983_j88124138979534_4_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

/-!
The layout of the kernel's own transfers.

The kernel leaves its argument in HBM and streams it, per batch row, through the two slots of a VMEM scratch
on a two-cell DMA-semaphore array: tile k of a row is the 18 depth rows 17 k .. 17 k + 17 of the row's volume (17
rows and one row of halo, so consecutive tiles overlap in one depth row), copied into slot k mod 2 and counted on
that slot's cell.  The first tile's point starts tiles 0 and 1 and waits tile 0; every later point waits its own
tile and, while one is left, starts the next over the slot read at the point before; so before step k >= 1 of a row
tile k is in flight into slot k and slot k + 1 keeps tile k - 1, and after the row's last step both slots are at
rest again.  Because tiles overlap, a tile is not taken out of the argument array: the array is held as two read
shares, one per slot, and a transfer borrows its tile's elements from its own slot's share.

Stated here: @main around the region at the algebra that counts transfers, the kernel's own cells and the operand
it moves, the region invariant the launch hands over conjunct by conjunct, the ring's slots, tiles, cells and
propositions for one row, the slots as a disjoint cover of the scratch, and the ring out of and back into the
launch's pieces.
-/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region inside the program, at the algebra with transfer counters -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The scratch operands, the operand left in HBM, the kernel's own cells -/

abbrev scM0 : Memref sig .tc .vmem S2x18x256x256 .f32 := Memref.whole cc0_scratch0
abbrev scM2 : Memref sig .tc .vmem S256x256 .f32 := Memref.whole cc0_scratch2
abbrev hbM0 : Memref sig .tc .hbm S2x1x256x256x256 .f32 := Memref.whole main_arg0

/-- A memref's buffer on core c: its contents type, and the buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The two cells of the kernel's semaphore array, by their numbers in the pool (the output window's two staging
    cells come first). -/
abbrev osem0 : Fin 2 → SemLoc sig := fun j => (![SemLoc.dma 2, SemLoc.dma 3] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl

/-- The operand the body moves itself. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0 (V m c main_arg0)) := by
  rw [BI.bigSep_eq_bigSepL_of_eq [main_arg0] (by decide) (by decide)]; rfl

/-- What the launch hands the region and takes back: both scratch buffers at some contents, the generator
    register, the two cells at zero, the argument array whole at its launch contents. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM2 fullShare d)) ∗ (∃ r, prngReg c r) ∗ iprop(semVal ((c : Thread nD τ), SemLoc.dma 2) 0 ∗ semVal ((c : Thread nD τ), SemLoc.dma 3) 0) ∗ iprop(hbPt0 c hbM0 (V m c main_arg0))) := by
  rw [Pipeline.ΦD_eq, scopedRest0_eq, ownSems00_eq, hbmPts0_eq]; simp only [scM0, scM2, owns_whole]; try rfl

/-! ## One row's ring: slots, tiles, cells -/

theorem inb_slot (s : Fin 2) : ∀ a, (![s.val, 0, 0, 0] : Fin 4 → Nat) a + S1x18x256x256.size a ≤ S2x18x256x256.size a := by
  have := s.isLt; intro a; fin_cases a <;> simp <;> omega
theorem inb_src (r : Fin 2) (b : Fin 15) : ∀ a, (![r.val, 0, 17 * b.val, 0, 0] : Fin 5 → Nat) a + S1x1x18x256x256.size a ≤ S2x1x256x256x256.size a := by
  have := r.isLt; have := b.isLt; intro a; fin_cases a <;> simp <;> omega
theorem inb_cell (s : Fin 2) : ∀ a, (![s.val] : Fin 1 → Nat) a + S1.size a ≤ S2.size a := by
  have := s.isLt; intro a; fin_cases a <;> simp <;> omega

/-- Slot s of the scratch, spelt as the body's transfers spell their destination. -/
def rslot (s : Fin 2) : Memref sig .tc .vmem S18x256x256 .f32 :=
  (scM0.slice (Rect.unit (s := S2x18x256x256) ![s.val, 0, 0, 0] S1x18x256x256.size (inb_slot s)) (fun _ => rfl)).squeeze S18x256x256 squeezes_S1x18x256x256_S18x256x256
/-- Tile b of row r of the argument: depth rows 17 b .. 17 b + 17, spelt as the transfers spell their source. -/
def srcB (r : Fin 2) (b : Fin 15) : Memref sig .tc .hbm S18x256x256 .f32 :=
  (hbM0.slice (Rect.unit (s := S2x1x256x256x256) ![r.val, 0, 17 * b.val, 0, 0] S1x1x18x256x256.size (inb_src r b)) (fun _ => rfl)).squeeze S18x256x256 squeezes_S1x1x18x256x256_S18x256x256
/-- Cell s of the semaphore array, spelt as the body spells a cell, and its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 2 := by decide
theorem cellR_1 : cellR 1 = SemLoc.dma 3 := by decide

section RingRow
variable (c : Dev nD) (W : HbBuf0 (F := F) c hbM0) (r : Fin 2)
/-- Slot s's read share of the argument: the two halves of the full share. -/
abbrev qs (s : Fin 2) : PosShare TreeShare := if s.val = 0 then fullShare.left else fullShare.right
/-- Slot s held at f; cell s at zero; tile b's elements of slot s's copy of the argument, the rest of that copy,
    the copy whole; the slot once tile b has landed in it whole over f; the flight of tile b into slot s. -/
abbrev slotP (s : Fin 2) (f : HbBuf0 (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 15) : sProp 𝕄 := (srcB r b).view.loc (c : Thread nD τ) ↦[(srcB r b).view.set]{qs s} W
def restP (s : Fin 2) (b : Fin 15) : sProp 𝕄 := ((c : Thread nD τ).loc main_arg0) ↦[Finset.univ \ (srcB r b).view.set]{qs s} W
abbrev wholeP (s : Fin 2) : sProp 𝕄 := ((c : Thread nD τ).loc main_arg0) ↦[Finset.univ]{qs s} W
abbrev landed (s : Fin 2) (b : Fin 15) (f : HbBuf0 (F := F) c (rslot s)) : HbBuf0 (F := F) c (rslot s) :=
  (rslot s).view.writes (Elt F) f [⟨Rect.whole S18x256x256, ReadAs.same.apply ((srcB r b).view.read (Elt F) W)⟩]
abbrev flightP (s : Fin 2) (b : Fin 15) (f : HbBuf0 (F := F) c (rslot s)) : sProp 𝕄 :=
  Transfers.Flight countersEmb (c : Thread nD τ) (cellR s) default ((rslot s).view.amount (cellR s))
    iprop(slotP c s (landed c W r s b f) ∗ srcP c W r s b)
/-- A slot at rest carries its copy of the argument whole; a flight, the rest of the copy it borrowed from. -/
abbrev slotW (s : Fin 2) (f : HbBuf0 (F := F) c (rslot s)) : sProp 𝕄 := iprop(slotP c s f ∗ wholeP c W s)
abbrev flightW (s : Fin 2) (b : Fin 15) (f : HbBuf0 (F := F) c (rslot s)) : sProp 𝕄 := iprop(flightP c W r s b f ∗ restP c W r s b)
abbrev noHome (b : Fin 15) : sProp 𝕄 := iprop(emp)
/-- The row's ring before its step k: both slots at rest before the first; from then on tile k in flight into slot
    k, slot k + 1 keeping tile k - 1. -/
def ringAt (k : ℕ) : sProp 𝕄 :=
  if k = 0 then Ring.At₀ (cellP c) (slotW c W) noHome
  else Ring.AtK 1 (cellP c) (slotW c W) noHome (flightW c W r) (landed c W r) k
omit [FloatOps F] in
theorem cellP_0 : cellP (F := F) c 0 = semVal ((c : Thread nD τ), SemLoc.dma 2) 0 := congrArg (fun x => (semVal ((c : Thread nD τ), x) 0 : sProp 𝕄)) cellR_0
omit [FloatOps F] in
theorem cellP_1 : cellP (F := F) c 1 = semVal ((c : Thread nD τ), SemLoc.dma 3) 0 := congrArg (fun x => (semVal ((c : Thread nD τ), x) 0 : sProp 𝕄)) cellR_1
end RingRow

/-! ## The slots: disjoint, covering the scratch -/

abbrev slotSet (s : Fin 2) : Finset S2x18x256x256.Idx := (Rect.unit (s := S2x18x256x256) ![s.val, 0, 0, 0] S1x18x256x256.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x18x256x256) (0 : Fin 4) 1 (fun s : Fin 2 => (![s.val, 0, 0, 0] : Fin 4 → Nat)) S1x18x256x256.size inb_slot (fun s => by simp) rfl s s' h
theorem slots_cover : Finset.univ.biUnion slotSet = Finset.univ :=
  Ring.lead_cover (s := S2x18x256x256) (0 : Fin 4) 1 (fun s : Fin 2 => (![s.val, 0, 0, 0] : Fin 4 → Nat)) S1x18x256x256.size inb_slot (fun s => by simp)
    (fun s a ha => by fin_cases a <;> first | exact absurd rfl ha | rfl) rfl (fun a ha => by fin_cases a <;> first | exact absurd rfl ha | rfl) rfl

/-! ## What the launch hands the ring, and takes back -/

section InOut
variable (c : Dev nD) (W : HbBuf0 (F := F) c hbM0)
theorem slotP_eq (s : Fin 2) (f) : slotP (F := F) c s f = (((c : Thread nD τ).loc cc0_scratch0) ↦[slotSet s]{fullShare} f : sProp 𝕄) := by
  unfold slotP; rw [slotSet_eq]; rfl
/-- A slot's copy of the argument, whole, is any tile's elements and the rest; -/
theorem src_split (r : Fin 2) (s : Fin 2) (b : Fin 15) : wholeP (F := F) c W s ⊣⊢ iprop(srcP c W r s b ∗ restP c W r s b) := by
  unfold restP; exact pointsTo_split_subset (Finset.subset_univ _)
/-- the argument whole at the full share is the two copies; -/
theorem whole_split : (hbPt0 c hbM0 W : sProp 𝕄) ⊣⊢ iprop(wholeP c W 0 ∗ wholeP c W 1) :=
  pointsTo_share (PosShare.mem_left_op_right fullShare)
set_option maxHeartbeats 1000000 in
/-- the scratch whole at anything is its slots at something each, and back. -/
theorem slots_in : iprop(∃ d, owns (c : Thread nD τ) scM0 fullShare d) ⊢ (iprop((∃ f, slotP (F := F) c 0 f) ∗ ∃ f, slotP (F := F) c 1 f) : sProp 𝕄) := by
  simp only [scM0, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM0 fullShare d) := by
  simp only [scM0, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)

/-- Both slots at rest, as the ring before a row's first step; -/
theorem rest_in :
    iprop((∃ d, owns (c : Thread nD τ) scM0 fullShare d) ∗ (semVal ((c : Thread nD τ), SemLoc.dma 2) 0 ∗ semVal ((c : Thread nD τ), SemLoc.dma 3) 0) ∗ hbPt0 c hbM0 W)
      ⊢ Ring.At₀ (cellP (F := F) c) (slotW c W) noHome := by
  unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and both slots at rest (whatever they keep forgotten) as the launch's pieces again. -/
theorem rest_out :
    iprop(bigSep Finset.univ (noHome (F := F)) ∗ Ring.free (cellP (F := F) c) (slotW c W) 0 ∗ Ring.free (cellP (F := F) c) (slotW c W) 1)
      ⊢ iprop((∃ d, owns (c : Thread nD τ) scM0 fullShare d) ∗ (semVal ((c : Thread nD τ), SemLoc.dma 2) 0 ∗ semVal ((c : Thread nD τ), SemLoc.dma 3) 0) ∗ hbPt0 c hbM0 W) := by
  simp only [Ring.free, cellP_0, cellP_1]
  iintro ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c W).2; isplitl [HW0]; · iexact HW0
    iexact HW1
/-- Both slots at rest is the ring before a first step. -/
theorem rest_at0 :
    iprop(bigSep Finset.univ (noHome (F := F)) ∗ Ring.free (cellP (F := F) c) (slotW c W) 0 ∗ Ring.free (cellP (F := F) c) (slotW c W) 1)
      ⊢ Ring.At₀ (cellP (F := F) c) (slotW c W) noHome := by
  unfold Ring.At₀
  rw [Ring.bigSep_fin2]
end InOut

end Cert.KernelIdeal.KF

end
-- ==== Proof.Canon.lean ====
import proofs.«407983_j88124138979534_4_alg».proof.Proof.Ring0

/-!
The body's operands at a grid point are the ring's slots, tiles and cells.

Point t of the 2 x 15 grid is step t mod 15 of row t / 15.  The first branch (start tiles 0 and 1, zero the
accumulator) is taken exactly at step 0, the second (start the next tile) exactly at steps 1 .. 13.  At step k the
body waits tile k of its row in slot k mod 2 on that slot's cell and loads rows 0 .. 16 and 1 .. 17 of that slot;
what it starts goes into slot (k + 1) mod 2.  Each equation is decided over the thirty points.
-/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The row a point works on. -/
def rowOf (t : Fin grid0.N) : Fin 2 := ⟨t.val / 15, by have h := t.isLt; have e : grid0.N = 30 := N_0; omega⟩

omit [FloatOps F] in
theorem hcond1 : ∀ t : Fin cfg0.N, k0_cond1 (grid0.coords t) = 1#1 ↔ t.val % 15 = 0 :=
  (by decide +kernel : ∀ t : Fin grid0.N, k0_cond1 (grid0.coords t) = 1#1 ↔ t.val % 15 = 0)
omit [FloatOps F] in
theorem hcond2 : ∀ t : Fin cfg0.N, k0_cond2 (grid0.coords t) = 1#1 ↔ (1 ≤ t.val % 15 ∧ t.val % 15 + 1 < 15) :=
  (by decide +kernel : ∀ t : Fin grid0.N, k0_cond2 (grid0.coords t) = 1#1 ↔ (1 ≤ t.val % 15 ∧ t.val % 15 + 1 < 15))

section Canon
omit [FloatOps F]
set_option synthInstance.maxSize 4096

/-! ### What every step waits and loads -/
theorem coff_wcell : ∀ t : Fin grid0.N, k0_off3 (grid0.coords t) = ![(Ring.sl 2 (t.val % 15)).val] := by decide +kernel
@[sl_canon] theorem canon_wcell (t : Fin grid0.N) :
    (cc0_scratch1.slice (Rect.unit (s := S2) (k0_off3 (grid0.coords t)) S1.size (k0_off3_inb (grid0.coords t)))).squeeze S_ squeezes_S1_S_ = cellA (Ring.sl 2 (t.val % 15)) :=
  congrArg (fun A : DmaSems sig S1 => A.squeeze S_ squeezes_S1_S_) (SemArray.slice_unit_congr _ (coff_wcell t) _ _)
theorem coff_wslot : ∀ t : Fin grid0.N, k0_off4 (grid0.coords t) = ![(Ring.sl 2 (t.val % 15)).val, 0, 0, 0] := by decide +kernel
@[sl_canon] theorem canon_wslot (t : Fin grid0.N) :
    (scM0.slice (Rect.unit (s := S2x18x256x256) (k0_off4 (grid0.coords t)) S1x18x256x256.size (k0_off4_inb (grid0.coords t))) (fun _ => rfl)).squeeze S18x256x256 squeezes_S1x18x256x256_S18x256x256 = rslot (Ring.sl 2 (t.val % 15)) :=
  congrArg (fun M : Memref sig .tc .vmem S1x18x256x256 .f32 => M.squeeze S18x256x256 squeezes_S1x18x256x256_S18x256x256) (Memref.slice_unit_congr _ (coff_wslot t) _ _ (fun _ => rfl) (fun _ => rfl))
theorem coff_wsrc : ∀ t : Fin grid0.N, k0_off5 (grid0.coords t) = ![(rowOf t).val, 0, 17 * (Ring.bk 15 (t.val % 15)).val, 0, 0] := by decide +kernel
@[sl_canon] theorem canon_wsrc (t : Fin grid0.N) :
    (hbM0.slice (Rect.unit (s := S2x1x256x256x256) (k0_off5 (grid0.coords t)) S1x1x18x256x256.size (k0_off5_inb (grid0.coords t))) (fun _ => rfl)).squeeze S18x256x256 squeezes_S1x1x18x256x256_S18x256x256 = srcB (rowOf t) (Ring.bk 15 (t.val % 15)) :=
  congrArg (fun M : Memref sig .tc .hbm S1x1x18x256x256 .f32 => M.squeeze S18x256x256 squeezes_S1x1x18x256x256_S18x256x256) (Memref.slice_unit_congr _ (coff_wsrc t) _ _ (fun _ => rfl) (fun _ => rfl))
theorem coff_ld0 : ∀ t : Fin grid0.N, k0_off9 (grid0.coords t) = ![(Ring.sl 2 (t.val % 15)).val, 0, 0, 0] := by decide +kernel
theorem coff_ld1 : ∀ t : Fin grid0.N, k0_off10 (grid0.coords t) = ![(Ring.sl 2 (t.val % 15)).val, 1, 0, 0] := by decide +kernel
/-- The loads' boxes in the slot's spelling. -/
instance (priority := high) closedOff_ld0 (t : Fin grid0.N) : ClosedOff (k0_off9 (grid0.coords t)) := ⟨![(Ring.sl 2 (t.val % 15)).val, 0, 0, 0], coff_ld0 t⟩
instance (priority := high) closedOff_ld1 (t : Fin grid0.N) : ClosedOff (k0_off10 (grid0.coords t)) := ⟨![(Ring.sl 2 (t.val % 15)).val, 1, 0, 0], coff_ld1 t⟩

/-! ### What a middle step starts -/
theorem coff_ncell : ∀ t : Fin grid0.N, k0_off6 (grid0.coords t) = ![(Ring.sl 2 (t.val % 15 + 1)).val] := by decide +kernel
@[sl_canon] theorem canon_ncell (t : Fin grid0.N) (h2 : k0_cond2 (grid0.coords t) = 1#1) :
    (cc0_scratch1.slice (Rect.unit (s := S2) (k0_off6 (grid0.coords t)) S1.size (k0_off6_inb (grid0.coords t) h2))).squeeze S_ squeezes_S1_S_ = cellA (Ring.sl 2 (t.val % 15 + 1)) :=
  congrArg (fun A : DmaSems sig S1 => A.squeeze S_ squeezes_S1_S_) (SemArray.slice_unit_congr _ (coff_ncell t) _ _)
theorem coff_nslot : ∀ t : Fin grid0.N, k0_off7 (grid0.coords t) = ![(Ring.sl 2 (t.val % 15 + 1)).val, 0, 0, 0] := by decide +kernel
@[sl_canon] theorem canon_nslot (t : Fin grid0.N) (h2 : k0_cond2 (grid0.coords t) = 1#1) :
    (scM0.slice (Rect.unit (s := S2x18x256x256) (k0_off7 (grid0.coords t)) S1x18x256x256.size (k0_off7_inb (grid0.coords t) h2)) (fun _ => rfl)).squeeze S18x256x256 squeezes_S1x18x256x256_S18x256x256 = rslot (Ring.sl 2 (t.val % 15 + 1)) :=
  congrArg (fun M : Memref sig .tc .vmem S1x18x256x256 .f32 => M.squeeze S18x256x256 squeezes_S1x18x256x256_S18x256x256) (Memref.slice_unit_congr _ (coff_nslot t) _ _ (fun _ => rfl) (fun _ => rfl))
theorem coff_nsrc : ∀ t : Fin grid0.N, k0_cond2 (grid0.coords t) = 1#1 → k0_off8 (grid0.coords t) = ![(rowOf t).val, 0, 17 * (Ring.bk 15 (t.val % 15 + 1)).val, 0, 0] := by decide +kernel
@[sl_canon] theorem canon_nsrc (t : Fin grid0.N) (h2 : k0_cond2 (grid0.coords t) = 1#1) :
    (hbM0.slice (Rect.unit (s := S2x1x256x256x256) (k0_off8 (grid0.coords t)) S1x1x18x256x256.size (k0_off8_inb (grid0.coords t) h2)) (fun _ => rfl)).squeeze S18x256x256 squeezes_S1x1x18x256x256_S18x256x256 = srcB (rowOf t) (Ring.bk 15 (t.val % 15 + 1)) :=
  congrArg (fun M : Memref sig .tc .hbm S1x1x18x256x256 .f32 => M.squeeze S18x256x256 squeezes_S1x1x18x256x256_S18x256x256) (Memref.slice_unit_congr _ (coff_nsrc t h2) _ _ (fun _ => rfl) (fun _ => rfl))

/-! ### What a first step starts: tiles 0 and 1, at literal slots and cells -/
theorem coff_f0cell : ∀ t : Fin grid0.N, k0_cond1 (grid0.coords t) = 1#1 → (![0] : Fin 1 → Nat) = ![(Ring.sl 2 (t.val % 15)).val] := by decide +kernel
theorem canon_f0cell (t : Fin grid0.N) (h1 : k0_cond1 (grid0.coords t) = 1#1) :
    (cc0_scratch1.slice (Rect.unit (s := S2) ![0] S1.size inb_S2_S1_0)).squeeze S_ squeezes_S1_S_ = cellA (Ring.sl 2 (t.val % 15)) :=
  congrArg (fun A : DmaSems sig S1 => A.squeeze S_ squeezes_S1_S_) (SemArray.slice_unit_congr _ (coff_f0cell t h1) _ _)
theorem coff_f0slot : ∀ t : Fin grid0.N, k0_cond1 (grid0.coords t) = 1#1 → (![0, 0, 0, 0] : Fin 4 → Nat) = ![(Ring.sl 2 (t.val % 15)).val, 0, 0, 0] := by decide +kernel
theorem canon_f0slot (t : Fin grid0.N) (h1 : k0_cond1 (grid0.coords t) = 1#1) :
    (scM0.slice (Rect.unit (s := S2x18x256x256) ![0, 0, 0, 0] S1x18x256x256.size inb_S2x18x256x256_S1x18x256x256_0_0_0_0) (fun _ => rfl)).squeeze S18x256x256 squeezes_S1x18x256x256_S18x256x256 = rslot (Ring.sl 2 (t.val % 15)) :=
  congrArg (fun M : Memref sig .tc .vmem S1x18x256x256 .f32 => M.squeeze S18x256x256 squeezes_S1x18x256x256_S18x256x256) (Memref.slice_unit_congr _ (coff_f0slot t h1) _ _ (fun _ => rfl) (fun _ => rfl))
theorem coff_f0src : ∀ t : Fin grid0.N, k0_cond1 (grid0.coords t) = 1#1 → k0_off1 (grid0.coords t) = ![(rowOf t).val, 0, 17 * (Ring.bk 15 (t.val % 15)).val, 0, 0] := by decide +kernel
@[sl_canon] theorem canon_f0src (t : Fin grid0.N) (h1 : k0_cond1 (grid0.coords t) = 1#1) :
    (hbM0.slice (Rect.unit (s := S2x1x256x256x256) (k0_off1 (grid0.coords t)) S1x1x18x256x256.size (k0_off1_inb (grid0.coords t) h1)) (fun _ => rfl)).squeeze S18x256x256 squeezes_S1x1x18x256x256_S18x256x256 = srcB (rowOf t) (Ring.bk 15 (t.val % 15)) :=
  congrArg (fun M : Memref sig .tc .hbm S1x1x18x256x256 .f32 => M.squeeze S18x256x256 squeezes_S1x1x18x256x256_S18x256x256) (Memref.slice_unit_congr _ (coff_f0src t h1) _ _ (fun _ => rfl) (fun _ => rfl))
theorem coff_f1cell : ∀ t : Fin grid0.N, k0_cond1 (grid0.coords t) = 1#1 → (![1] : Fin 1 → Nat) = ![(Ring.sl 2 (t.val % 15 + 1)).val] := by decide +kernel
theorem canon_f1cell (t : Fin grid0.N) (h1 : k0_cond1 (grid0.coords t) = 1#1) :
    (cc0_scratch1.slice (Rect.unit (s := S2) ![1] S1.size inb_S2_S1_1)).squeeze S_ squeezes_S1_S_ = cellA (Ring.sl 2 (t.val % 15 + 1)) :=
  congrArg (fun A : DmaSems sig S1 => A.squeeze S_ squeezes_S1_S_) (SemArray.slice_unit_congr _ (coff_f1cell t h1) _ _)
theorem coff_f1slot : ∀ t : Fin grid0.N, k0_cond1 (grid0.coords t) = 1#1 → (![1, 0, 0, 0] : Fin 4 → Nat) = ![(Ring.sl 2 (t.val % 15 + 1)).val, 0, 0, 0] := by decide +kernel
theorem canon_f1slot (t : Fin grid0.N) (h1 : k0_cond1 (grid0.coords t) = 1#1) :
    (scM0.slice (Rect.unit (s := S2x18x256x256) ![1, 0, 0, 0] S1x18x256x256.size inb_S2x18x256x256_S1x18x256x256_1_0_0_0) (fun _ => rfl)).squeeze S18x256x256 squeezes_S1x18x256x256_S18x256x256 = rslot (Ring.sl 2 (t.val % 15 + 1)) :=
  congrArg (fun M : Memref sig .tc .vmem S1x18x256x256 .f32 => M.squeeze S18x256x256 squeezes_S1x18x256x256_S18x256x256) (Memref.slice_unit_congr _ (coff_f1slot t h1) _ _ (fun _ => rfl) (fun _ => rfl))
theorem coff_f1src : ∀ t : Fin grid0.N, k0_cond1 (grid0.coords t) = 1#1 → k0_off2 (grid0.coords t) = ![(rowOf t).val, 0, 17 * (Ring.bk 15 (t.val % 15 + 1)).val, 0, 0] := by decide +kernel
@[sl_canon] theorem canon_f1src (t : Fin grid0.N) (h1 : k0_cond1 (grid0.coords t) = 1#1) :
    (hbM0.slice (Rect.unit (s := S2x1x256x256x256) (k0_off2 (grid0.coords t)) S1x1x18x256x256.size (k0_off2_inb (grid0.coords t) h1)) (fun _ => rfl)).squeeze S18x256x256 squeezes_S1x1x18x256x256_S18x256x256 = srcB (rowOf t) (Ring.bk 15 (t.val % 15 + 1)) :=
  congrArg (fun M : Memref sig .tc .hbm S1x1x18x256x256 .f32 => M.squeeze S18x256x256 squeezes_S1x1x18x256x256_S18x256x256) (Memref.slice_unit_congr _ (coff_f1src t h1) _ _ (fun _ => rfl) (fun _ => rfl))
end Canon

end Cert.KernelIdeal.KF

end
-- ==== Proof.Runs.lean ====
import proofs.«407983_j88124138979534_4_alg».proof.Proof.Canon

/-!
The body's triple at each kind of point, with what it leaves in the output block and in the accumulator as the
piece lists its stores write.

* A first step (step 0 of a row) finds both slots at rest and the accumulator at anything: it starts tiles 0 and 1,
  zeroes the accumulator, waits tile 0, and leaves tile 1 in flight and slot 0 keeping tile 0.
* A middle step k (1 .. 13) finds tile k in flight and slot k + 1 keeping tile k - 1: it waits tile k, starts tile
  k + 1 over the kept one, and leaves tile k + 1 in flight and slot k keeping tile k.
* A last step (14) finds tile 14 in flight: it waits it and leaves slot 14 keeping it.
Every step then loads rows 0 .. 16 and 1 .. 17 of its slot, adds the tile's masked plane sums into the accumulator
and stores the accumulator's total into the output block.
-/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The staging buffer the output block is stated through, and the accumulator's view. -/
abbrev VO : View sig .tc .vmem S1x1x1 .f32 := (Memref.whole cc0_stg0_0 : Memref sig .tc .vmem S1x1x1 .f32).view
abbrev VA : View sig .tc .vmem S256x256 .f32 := scM2.view

set_option maxHeartbeats 2000000 in
/-- A first step. -/
noncomputable def kernelRun_A (c : Dev nD) (t : Fin cfg0.N) (arg3 : Memref sig .tc .vmem S1x1x1 .f32) (harg3 : arg3.IsWhole)
    (hc1 : k0_cond1 (grid0.coords t) = 1#1) (hc2 : ¬ k0_cond2 (grid0.coords t) = 1#1) (fh0 : HbBuf0 (F := F) c hbM0) :
    { L : List (View.Piece (Elt F) S1x1x1 .f32) × List (View.Piece (Elt F) S256x256 .f32) //
      ∀ (W : Waits sig Unit) (K : PUnit → sProp 𝕄),
        iprop((∃ d, owns (c : Thread nD τ) arg3 fullShare d)
            ∗ Ring.free (cellP c) (slotW c fh0) (Ring.sl 2 (t.val % 15)) ∗ Ring.free (cellP c) (slotW c fh0) (Ring.sl 2 (t.val % 15 + 1))
            ∗ (∃ d, owns (c : Thread nD τ) scM2 fullShare d)
            ∗ owes (c : Thread nD τ) 0 W
            ∗ (iprop((∃ f, arg3.view.loc (c : Thread nD τ) ↦[arg3.view.set]{fullShare} arg3.view.writes (Elt F) f L.1)
                ∗ Ring.inflight (flightW c fh0 (rowOf t)) (Ring.sl 2 (t.val % 15 + 1)) (Ring.bk 15 (t.val % 15 + 1))
                ∗ Ring.kept (cellP c) (slotW c fh0) (landed c fh0 (rowOf t)) (Ring.sl 2 (t.val % 15)) (Ring.bk 15 (t.val % 15))
                ∗ (∃ f, scM2.view.loc (c : Thread nD τ) ↦[scM2.view.set]{fullShare} scM2.view.writes (Elt F) f L.2)
                ∗ (∃ W', owes (c : Thread nD τ) 0 W')) -∗ K ⟨⟩))
          ⊢ wp frame (wpE (defs₀ (F := F)) Variants.none c none) Set.univ (cc0_kernel (grid0.coords t) (Memref.whole main_arg0) (Memref.isWhole_whole _) arg3 harg3 scM0 (Memref.isWhole_whole _) cc0_scratch1 scM2 (Memref.isWhole_whole _)) K } := by
  refine ⟨(?_, ?_), fun W K => ?run⟩
  case run =>
    haveI : Fact (k0_cond1 (grid0.coords t) = 1#1) := ⟨hc1⟩
    haveI : Fact (¬ k0_cond2 (grid0.coords t) = 1#1) := ⟨hc2⟩
    simp only [cc0_kernel_eq_skeleton]; unfold cc0_kernel_skel
    simp only [k0_part1_eq_skeleton, k0_part2_eq_skeleton]
    have hcanon0 := canon_f0cell t hc1
    have hcanon1 := canon_f0slot t hc1
    have hcanon2 := canon_f1cell t hc1
    have hcanon3 := canon_f1slot t hc1
    unfold owns Ring.free Ring.inflight Ring.kept
    iintro ⟨⟨%d1, %f1, -, H1⟩, ⟨Hc0, ⟨%fs0, Hs0, Hw0⟩⟩, ⟨Hc1, ⟨%fs1, Hs1, Hw1⟩⟩, ⟨%d2, %g2, -, H2⟩, HW, Hk⟩
    ihave Hsp0 := (src_split c fh0 (rowOf t) (Ring.sl 2 (t.val % 15)) (Ring.bk 15 (t.val % 15))).1 $$ Hw0
    icases Hsp0 with ⟨Hh0, Hr0⟩
    ihave Hsp1 := (src_split c fh0 (rowOf t) (Ring.sl 2 (t.val % 15 + 1)) (Ring.bk 15 (t.val % 15 + 1))).1 $$ Hw1
    icases Hsp1 with ⟨Hh1, Hr1⟩
    sl_exec (disch := first | exact hc1 | exact hc2)
    sl_step
    iapply Hk
    isplitl [H1]; · iexists _; iexact H1
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (src_split c fh0 (rowOf t) (Ring.sl 2 (t.val % 15)) (Ring.bk 15 (t.val % 15))).2; isplitl [Hh0]; · iexact Hh0
      iexact Hr0
    isplitl [H2]; · iexists _; iexact H2
    iexists _; iexact HW

set_option maxHeartbeats 2000000 in
/-- A middle step. -/
noncomputable def kernelRun_B (c : Dev nD) (t : Fin cfg0.N) (arg3 : Memref sig .tc .vmem S1x1x1 .f32) (harg3 : arg3.IsWhole)
    (hc1 : ¬ k0_cond1 (grid0.coords t) = 1#1) (hc2 : k0_cond2 (grid0.coords t) = 1#1) (fh0 : HbBuf0 (F := F) c hbM0) (a0 : Vec F S256x256 .f32) :
    { L : List (View.Piece (Elt F) S1x1x1 .f32) × List (View.Piece (Elt F) S256x256 .f32) //
      ∀ (W : Waits sig Unit) (K : PUnit → sProp 𝕄),
        iprop((∃ d, owns (c : Thread nD τ) arg3 fullShare d)
            ∗ Ring.inflight (flightW c fh0 (rowOf t)) (Ring.sl 2 (t.val % 15)) (Ring.bk 15 (t.val % 15))
            ∗ Ring.kept (cellP c) (slotW c fh0) (landed c fh0 (rowOf t)) (Ring.sl 2 (t.val % 15 + 1)) (Ring.bk 15 (t.val % 15 - 1))
            ∗ owns (c : Thread nD τ) scM2 fullShare a0
            ∗ owes (c : Thread nD τ) 0 W
            ∗ (iprop((∃ f, arg3.view.loc (c : Thread nD τ) ↦[arg3.view.set]{fullShare} arg3.view.writes (Elt F) f L.1)
                ∗ Ring.inflight (flightW c fh0 (rowOf t)) (Ring.sl 2 (t.val % 15 + 1)) (Ring.bk 15 (t.val % 15 + 1))
                ∗ Ring.kept (cellP c) (slotW c fh0) (landed c fh0 (rowOf t)) (Ring.sl 2 (t.val % 15)) (Ring.bk 15 (t.val % 15))
                ∗ (∃ f, scM2.view.loc (c : Thread nD τ) ↦[scM2.view.set]{fullShare} scM2.view.writes (Elt F) f L.2)
                ∗ (∃ W', owes (c : Thread nD τ) 0 W')) -∗ K ⟨⟩))
          ⊢ wp frame (wpE (defs₀ (F := F)) Variants.none c none) Set.univ (cc0_kernel (grid0.coords t) (Memref.whole main_arg0) (Memref.isWhole_whole _) arg3 harg3 scM0 (Memref.isWhole_whole _) cc0_scratch1 scM2 (Memref.isWhole_whole _)) K } := by
  refine ⟨(?_, ?_), fun W K => ?run⟩
  case run =>
    haveI : Fact (¬ k0_cond1 (grid0.coords t) = 1#1) := ⟨hc1⟩
    haveI : Fact (k0_cond2 (grid0.coords t) = 1#1) := ⟨hc2⟩
    simp only [cc0_kernel_eq_skeleton]; unfold cc0_kernel_skel
    simp only [k0_part1_eq_skeleton, k0_part2_eq_skeleton]
    unfold owns Ring.inflight Ring.kept
    iintro ⟨⟨%d1, %f1, -, H1⟩, ⟨%ff0, Hf0, Hrf0⟩, ⟨Hc1, ⟨%fs1, Hs1, Hw1⟩⟩, ⟨%g2, %hg2, H2⟩, HW, Hk⟩
    ihave Hsp1 := (src_split c fh0 (rowOf t) (Ring.sl 2 (t.val % 15 + 1)) (Ring.bk 15 (t.val % 15 + 1))).1 $$ Hw1
    icases Hsp1 with ⟨Hh1, Hr1⟩
    obtain rfl := (Memref.isWhole_whole cc0_scratch2).eq_unread hg2
    sl_exec (disch := first | exact hc1 | exact hc2)
    sl_step
    iapply Hk
    isplitl [H1]; · iexists _; iexact H1
    isplitl [Hc1 Hr1]
    · iexists _; isplitl [Hc1]; · iexact Hc1
      iexact Hr1
    isplitl [Hf0 Hf0_dst Hf0_src Hrf0]
    · isplitl [Hf0]; · iexact Hf0
      iexists _; isplitl [Hf0_dst]; · iexact Hf0_dst
      iapply (src_split c fh0 (rowOf t) (Ring.sl 2 (t.val % 15)) (Ring.bk 15 (t.val % 15))).2; isplitl [Hf0_src]; · iexact Hf0_src
      iexact Hrf0
    isplitl [H2]; · iexists _; iexact H2
    iexists _; iexact HW

set_option maxHeartbeats 2000000 in
/-- A last step. -/
noncomputable def kernelRun_C (c : Dev nD) (t : Fin cfg0.N) (arg3 : Memref sig .tc .vmem S1x1x1 .f32) (harg3 : arg3.IsWhole)
    (hc1 : ¬ k0_cond1 (grid0.coords t) = 1#1) (hc2 : ¬ k0_cond2 (grid0.coords t) = 1#1) (fh0 : HbBuf0 (F := F) c hbM0) (a0 : Vec F S256x256 .f32) :
    { L : List (View.Piece (Elt F) S1x1x1 .f32) × List (View.Piece (Elt F) S256x256 .f32) //
      ∀ (W : Waits sig Unit) (K : PUnit → sProp 𝕄),
        iprop((∃ d, owns (c : Thread nD τ) arg3 fullShare d)
            ∗ Ring.inflight (flightW c fh0 (rowOf t)) (Ring.sl 2 (t.val % 15)) (Ring.bk 15 (t.val % 15))
            ∗ owns (c : Thread nD τ) scM2 fullShare a0
            ∗ owes (c : Thread nD τ) 0 W
            ∗ (iprop((∃ f, arg3.view.loc (c : Thread nD τ) ↦[arg3.view.set]{fullShare} arg3.view.writes (Elt F) f L.1)
                ∗ Ring.kept (cellP c) (slotW c fh0) (landed c fh0 (rowOf t)) (Ring.sl 2 (t.val % 15)) (Ring.bk 15 (t.val % 15))
                ∗ (∃ f, scM2.view.loc (c : Thread nD τ) ↦[scM2.view.set]{fullShare} scM2.view.writes (Elt F) f L.2)
                ∗ (∃ W', owes (c : Thread nD τ) 0 W')) -∗ K ⟨⟩))
          ⊢ wp frame (wpE (defs₀ (F := F)) Variants.none c none) Set.univ (cc0_kernel (grid0.coords t) (Memref.whole main_arg0) (Memref.isWhole_whole _) arg3 harg3 scM0 (Memref.isWhole_whole _) cc0_scratch1 scM2 (Memref.isWhole_whole _)) K } := by
  refine ⟨(?_, ?_), fun W K => ?run⟩
  case run =>
    haveI : Fact (¬ k0_cond1 (grid0.coords t) = 1#1) := ⟨hc1⟩
    haveI : Fact (¬ k0_cond2 (grid0.coords t) = 1#1) := ⟨hc2⟩
    simp only [cc0_kernel_eq_skeleton]; unfold cc0_kernel_skel
    simp only [k0_part1_eq_skeleton, k0_part2_eq_skeleton]
    unfold owns Ring.inflight Ring.kept
    iintro ⟨⟨%d1, %f1, -, H1⟩, ⟨%ff0, Hf0, Hrf0⟩, ⟨%g2, %hg2, H2⟩, HW, Hk⟩
    obtain rfl := (Memref.isWhole_whole cc0_scratch2).eq_unread hg2
    sl_exec (disch := first | exact hc1 | exact hc2)
    sl_step
    iapply Hk
    isplitl [H1]; · iexists _; iexact H1
    isplitl [Hf0 Hf0_dst Hf0_src Hrf0]
    · isplitl [Hf0]; · iexact Hf0
      iexists _; isplitl [Hf0_dst]; · iexact Hf0_dst
      iapply (src_split c fh0 (rowOf t) (Ring.sl 2 (t.val % 15)) (Ring.bk 15 (t.val % 15))).2; isplitl [Hf0_src]; · iexact Hf0_src
      iexact Hrf0
    isplitl [H2]; · iexists _; iexact H2
    iexists _; iexact HW

end Cert.KernelIdeal.KF

end
-- ==== Proof.KDefs.lean ====
import proofs.«407983_j88124138979534_4_alg».proof.Proof.Gen.KernelIdeal
import proofs.«407983_j88124138979534_4_alg».proof.Proof.Gen.KernelIdeal.Skeleton
import proofs.«407983_j88124138979534_4_alg».proof.Proof.Spec
import Idealize.ShloMosaic.Lib.ValueIdx

/-!
What the kernel's program computes, as ONE function of its argument array, at any float instance.

Batch b is walked in 15 tiles; tile k reads the 18 depth rows 17 k .. 17 k + 17 (the slab: 17 rows and one
row of halo), forms from rows 0..16 and rows 1..17 of the slab the masked plane sums of the tile (the body's
accumulator payload) and adds them into a 256 x 256 accumulator that starts at zero with the batch; after every
tile the accumulator's total (rows then columns) is the batch's output entry, so the entry that stays is the
total after tile 14.  The host then sums the two entries and divides by 255 * 255 and by 2 * 255.
-/

noncomputable section

namespace Cert.KernelIdeal.KV

open Idealize.ShloMosaic Idealize.ShloMosaic.TcCoe Idealize.SL.Sem Cert.KernelIdeal Cert.KernelIdeal.Gen
open Idealize.ShloMosaic.ValueIdx

variable {F : FTy → Type} [FloatOps F]

/-- The slab of tile k of batch b: depth rows 17 k .. 17 k + 17 of the batch's volume. -/
def slab (W : Vec F S2x1x256x256x256 .f32) (b : Fin 2) (k : Fin 15) : Vec F S18x256x256 .f32 :=
  fun y => W (ix5 b (0 : Fin 1) (⟨17 * k.val + (y 0).val, by have := k.isLt; have : (y 0).val < 18 := (y 0).isLt; omega⟩ : Fin 256)
    (⟨(y 1).val, (y 1).isLt⟩ : Fin 256) (⟨(y 2).val, (y 2).isLt⟩ : Fin 256))

/-- Rows 0..16 of a slab, as the body loads them (a leading unit axis). -/
def loRows (S : Vec F S18x256x256 .f32) : Vec F S1x17x256x256 .f32 :=
  fun y => S (ix3 (⟨(y 1).val, by have : (y 1).val < 17 := (y 1).isLt; omega⟩ : Fin 18) (⟨(y 2).val, (y 2).isLt⟩ : Fin 256) (⟨(y 3).val, (y 3).isLt⟩ : Fin 256))

/-- Rows 1..17 of a slab: each row's depth neighbour. -/
def hiRows (S : Vec F S18x256x256 .f32) : Vec F S1x17x256x256 .f32 :=
  fun y => S (ix3 (⟨(y 1).val + 1, by have : (y 1).val < 17 := (y 1).isLt; omega⟩ : Fin 18) (⟨(y 2).val, (y 2).isLt⟩ : Fin 256) (⟨(y 3).val, (y 3).isLt⟩ : Fin 256))

/-- One tile's step of the accumulator: the body's accumulator payload at the slab's two row ranges. -/
def accStep (S : Vec F S18x256x256 .f32) (acc : Vec F S256x256 .f32) : Vec F S256x256 .f32 :=
  k0_pay4 (k0_pay3 (loRows S)) (hiRows S) acc

/-- The accumulator after tile k of batch b: zero before tile 0, one step per tile. -/
def accRow (W : Vec F S2x1x256x256x256 .f32) (b : Fin 2) : ℕ → Vec F S256x256 .f32
  | 0 => accStep (slab W b (Fin.ofNat 15 0)) (k0_pay2 (F := F))
  | k + 1 => accStep (slab W b (Fin.ofNat 15 (k + 1))) (accRow W b k)

/-- The batch's output block after tile k: the accumulator's total. -/
def outAt (W : Vec F S2x1x256x256x256 .f32) (b : Fin 2) (k : ℕ) : Vec F S1x1x1 .f32 :=
  k0_pay1 (k0_pay5 (accRow W b k))

/-- The kernel's output array: per batch the total after the last tile. -/
def outArr (W : Vec F S2x1x256x256x256 .f32) : Vec F S2x1x1 .f32 :=
  fun j => outAt W (⟨(j 0).val, (j 0).isLt⟩ : Fin 2) 14 (ix3 (0 : Fin 1) (0 : Fin 1) (0 : Fin 1))

/-- The program's result: the host's sum of the output array over both divisors. -/
def result (W : Vec F S2x1x256x256x256 .f32) : Vec F S_ .f32 :=
  Host.divf (Host.divf (Host.reduceAdd (outArr W) (constant S_ .f32 0x00000000#32) reducesTo_S2x1x1_S_d0_1_2 h_S_)
    (constant S_ .f32 0x477E0100#32)) (constant S_ .f32 0x43FF0000#32)

end Cert.KernelIdeal.KV

end
-- ==== Proof.Slot.lean ====
import proofs.«407983_j88124138979534_4_alg».proof.Proof.Canon
import proofs.«407983_j88124138979534_4_alg».proof.Proof.KDefs
import Idealize.ShloMosaic.Lib.Pipeline.Value
import Idealize.ShloMosaic.Lib.ValueIdx
import Idealize.ShloMosaic.Lib.ValueLayout

/-!
What the body loads from a slot in which a tile has landed.

The slot is rows (s, 0 .. 17) of the two-slot scratch, seen by the transfer through a view that drops the leading
unit axis; the tile is rows (r, 0, 17 b .. 17 b + 17) of the argument array, seen through a view that drops two.
After the transfer the slot holds the tile, index by index behind the dropped axes.  A load through the WHOLE
scratch of the 17 rows starting at row j of the slot (j = 0 or 1) therefore reads rows 17 b + j .. 17 b + j + 16 of
row r of the argument: the slab's lower rows for j = 0, its upper rows for j = 1.
-/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

/-- Contents that ARE a view's whole write of x over anything are read back by the view as x. -/
private theorem read_of_eq_writes {κ : Kind} {sp : Space} {S : Shape} {e : EltTy} (v : View sig κ sp S e)
    (g f : v.ty.Contents (Elt F)) (x : S.Idx → Elt F e) (hg : g = v.writes (Elt F) f [⟨Rect.whole S, x⟩]) (z : S.Idx) :
    v.read (Elt F) g z = x z := by
  subst hg
  exact congrFun (View.read_writes_whole v f x) z

omit [FloatOps F] in
/-- The slot view places the index (z0, z1, z2) behind its dropped unit axis at (s, z0, z1, z2) of the scratch. -/
private theorem rslot_emb (s : Fin 2) (z0 : Fin 18) (z1 z2 : Fin 256) (a : Fin 4) :
    ((rslot s).view.emb (ix3 z0 z1 z2) a).val = (![s.val, z0.val, z1.val, z2.val] : Fin 4 → Nat) a := by
  show (![s.val, 0, 0, 0] : Fin 4 → Nat) a + 1 * ((Shape.reshapeEquiv (Shape.Squeezes.numel_eq squeezes_S1x18x256x256_S18x256x256) (ix3 z0 z1 z2)) a).val = _
  rw [reshapeEquiv_ix3_1abc]
  match a with
  | ⟨0, _⟩ => show s.val + 1 * 0 = s.val; omega
  | ⟨1, _⟩ => show 0 + 1 * z0.val = z0.val; omega
  | ⟨2, _⟩ => show 0 + 1 * z1.val = z1.val; omega
  | ⟨3, _⟩ => show 0 + 1 * z2.val = z2.val; omega

omit [FloatOps F] in
/-- The tile view places the index (z0, z1, z2) behind its two dropped unit axes at (r, 0, 17 b + z0, z1, z2) of the
    argument. -/
private theorem srcB_emb (r : Fin 2) (b : Fin 15) (z0 : Fin 18) (z1 z2 : Fin 256) (a : Fin 5) :
    ((srcB r b).view.emb (ix3 z0 z1 z2) a).val = (![r.val, 0, 17 * b.val + z0.val, z1.val, z2.val] : Fin 5 → Nat) a := by
  show (![r.val, 0, 17 * b.val, 0, 0] : Fin 5 → Nat) a + 1 * ((Shape.reshapeEquiv (Shape.Squeezes.numel_eq squeezes_S1x1x18x256x256_S18x256x256) (ix3 z0 z1 z2)) a).val = _
  rw [reshapeEquiv_ix3_11abc]
  match a with
  | ⟨0, _⟩ => show r.val + 1 * 0 = r.val; omega
  | ⟨1, _⟩ => show 0 + 1 * 0 = 0; omega
  | ⟨2, _⟩ => show 17 * b.val + 1 * z0.val = 17 * b.val + z0.val; omega
  | ⟨3, _⟩ => show 0 + 1 * z1.val = z1.val; omega
  | ⟨4, _⟩ => show 0 + 1 * z2.val = z2.val; omega

/-- Through the whole scratch, the 17 rows from row j of slot s (j at most 1), of contents "the slot view's whole write
    of tile b of row r over anything", read the argument at (r, 0, 17 b + j + row, h, w). -/
private theorem rows_read (c : Dev nD) (s r : Fin 2) (b : Fin 15) (W : HbBuf0 (F := F) c hbM0) (j : Nat) (hj : j ≤ 1)
    (inb : ∀ a, (![s.val, j, 0, 0] : Fin 4 → Nat) a + S1x17x256x256.size a ≤ S2x18x256x256.size a) (y : S1x17x256x256.Idx) :
    scM0.view.readAt (Elt F) (Rect.unit (s := S2x18x256x256) ![s.val, j, 0, 0] S1x17x256x256.size inb).toLoadRect
        ((rslot s).view.writes (Elt F) (rslot s).view.junk [⟨Rect.whole S18x256x256, ReadAs.same.apply ((srcB r b).view.read (Elt F) W)⟩]) y
      = W (ix5 r (0 : Fin 1)
          (⟨17 * b.val + ((y 1).val + j), by have := b.isLt; have : (y 1).val < 17 := (y 1).isLt; omega⟩ : Fin 256)
          (⟨(y 2).val, (y 2).isLt⟩ : Fin 256) (⟨(y 3).val, (y 3).isLt⟩ : Fin 256)) := by
  have h0 : (y 0).val < 1 := (y 0).isLt
  have h1 : (y 1).val < 17 := (y 1).isLt
  have hb : b.val < 15 := b.isLt
  -- name the slot's contents: from here on only what the slot view reads off them matters
  generalize hg : (rslot s).view.writes (Elt F) (rslot s).view.junk [⟨Rect.whole S18x256x256, ReadAs.same.apply ((srcB r b).view.read (Elt F) W)⟩] = g
  -- they are read back by the slot view as the payload: the tile view's read of the argument
  have hr := read_of_eq_writes (rslot s).view g _ _ hg.symm
    (ix3 (⟨(y 1).val + j, by omega⟩ : Fin 18) (⟨(y 2).val, (y 2).isLt⟩ : Fin 256) (⟨(y 3).val, (y 3).isLt⟩ : Fin 256))
  -- through the whole view a load reads the contents at the box's index
  show g ((Rect.unit (s := S2x18x256x256) ![s.val, j, 0, 0] S1x17x256x256.size inb).toLoadRect.idx y) = _
  -- the box's index is the slot view's placement of (row + j, h, w)
  have e : (Rect.unit (s := S2x18x256x256) ![s.val, j, 0, 0] S1x17x256x256.size inb).toLoadRect.idx y
      = (rslot s).view.emb (ix3 (⟨(y 1).val + j, by omega⟩ : Fin 18) (⟨(y 2).val, (y 2).isLt⟩ : Fin 256) (⟨(y 3).val, (y 3).isLt⟩ : Fin 256)) := by
    funext a
    apply Fin.ext
    rw [rslot_emb]
    match a with
    | ⟨0, _⟩ => show s.val + 1 * (y 0).val = s.val; omega
    | ⟨1, _⟩ => show j + 1 * (y 1).val = (y 1).val + j; omega
    | ⟨2, _⟩ => show 0 + 1 * (y 2).val = (y 2).val; omega
    | ⟨3, _⟩ => show 0 + 1 * (y 3).val = (y 3).val; omega
  rw [e]
  -- the contents at a view's placement of an index are what the view reads there
  refine Eq.trans (b := (rslot s).view.read (Elt F) g
    (ix3 (⟨(y 1).val + j, by omega⟩ : Fin 18) (⟨(y 2).val, (y 2).isLt⟩ : Fin 256) (⟨(y 3).val, (y 3).isLt⟩ : Fin 256))) rfl (hr.trans ?_)
  -- and the tile view reads the argument at its own placement of that index
  show W ((srcB r b).view.emb _) = W _
  refine congrArg W (funext fun (a : Fin 5) => Fin.ext ?_)
  refine (srcB_emb r b _ _ _ a).trans ?_
  match a with
  | ⟨0, _⟩ => rfl
  | ⟨1, _⟩ => rfl
  | ⟨2, _⟩ => rfl
  | ⟨3, _⟩ => rfl
  | ⟨4, _⟩ => rfl

/-- Rows 0 .. 16 of the landed slot are the lower rows of tile b's slab. -/
theorem lo_read (c : Dev nD) (s r : Fin 2) (b : Fin 15) (W : HbBuf0 (F := F) c hbM0) (off : Fin 4 → Nat)
    (inb : ∀ a, off a + S1x17x256x256.size a ≤ S2x18x256x256.size a) (hoff : off = ![s.val, 0, 0, 0]) :
    scM0.view.readAt (Elt F) (Rect.unit (s := S2x18x256x256) off S1x17x256x256.size inb).toLoadRect
        ((rslot s).view.writes (Elt F) (rslot s).view.junk [⟨Rect.whole S18x256x256, ReadAs.same.apply ((srcB r b).view.read (Elt F) W)⟩])
      = KV.loRows (KV.slab W r b) := by
  subst hoff
  funext y
  refine (rows_read c s r b W 0 (by omega) inb y).trans ?_
  -- the slab's lower rows at (0, row, h, w): the argument at (r, 0, 17 b + row, h, w)
  show W _ = W _
  refine congrArg W (funext fun (a : Fin 5) => Fin.ext ?_)
  match a with
  | ⟨0, _⟩ => rfl
  | ⟨1, _⟩ => rfl
  | ⟨2, _⟩ => show 17 * b.val + ((y 1).val + 0) = 17 * b.val + (y 1).val; omega
  | ⟨3, _⟩ => rfl
  | ⟨4, _⟩ => rfl

/-- Rows 1 .. 17 of the landed slot are the upper rows of tile b's slab. -/
theorem hi_read (c : Dev nD) (s r : Fin 2) (b : Fin 15) (W : HbBuf0 (F := F) c hbM0) (off : Fin 4 → Nat)
    (inb : ∀ a, off a + S1x17x256x256.size a ≤ S2x18x256x256.size a) (hoff : off = ![s.val, 1, 0, 0]) :
    scM0.view.readAt (Elt F) (Rect.unit (s := S2x18x256x256) off S1x17x256x256.size inb).toLoadRect
        ((rslot s).view.writes (Elt F) (rslot s).view.junk [⟨Rect.whole S18x256x256, ReadAs.same.apply ((srcB r b).view.read (Elt F) W)⟩])
      = KV.hiRows (KV.slab W r b) := by
  subst hoff
  funext y
  refine (rows_read c s r b W 1 (by omega) inb y).trans ?_
  -- the slab's upper rows at (0, row, h, w): the argument at (r, 0, 17 b + row + 1, h, w)
  show W _ = W _
  refine congrArg W (funext fun (a : Fin 5) => Fin.ext ?_)
  match a with
  | ⟨0, _⟩ => rfl
  | ⟨1, _⟩ => rfl
  | ⟨2, _⟩ => rfl
  | ⟨3, _⟩ => rfl
  | ⟨4, _⟩ => rfl

end Cert.KernelIdeal.KF

end
-- ==== Proof.Data.lean ====
import proofs.«407983_j88124138979534_4_alg».proof.Proof.Runs
import proofs.«407983_j88124138979534_4_alg».proof.Proof.Slot
import proofs.«407983_j88124138979534_4_alg».proof.Proof.KDefs

/-!
The proof data of the kernel's one pipeline, the body's obligation at every point, and the frame run.

Before point n (n = 15 r + k) the region holds the generator register, the accumulator, and row r's ring before
its step k.  The accumulator is at anything before a row's first step (the step zeroes it) and afterwards at the
accumulated plane sums of the row's tiles 0 .. k - 1; the output block after point n is the total of the
accumulator after it.  What each kind of step leaves is read off its run's piece lists: the two loads of the
landed slot are the lower and upper rows of the tile's slab, the accumulator load is what the invariant names (the
zero payload just stored, at a first step), so the accumulator ends at the tile's step of the previous one.  The
ring's pieces are taken apart and put back by the ring library's equations for a first, a middle and a last step,
the row's last step handing both slots back at rest for the next row's first.
-/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the runs' piece lists hold -/

section Values
variable (c : Dev nD) (t : Fin cfg0.N) (arg3 : Memref sig .tc .vmem S1x1x1 .f32) (harg3 : arg3.IsWhole)
  (fh0 : HbBuf0 (F := F) c hbM0) (a0 : Vec F S256x256 .f32)

/-- The tile's step of an accumulator, at the point's row and step. -/
def stepOf (a : Vec F S256x256 .f32) : Vec F S256x256 .f32 :=
  KV.accStep (KV.slab fh0 (rowOf t) (Ring.bk 15 (t.val % 15))) a

/-- The accumulator payload over the two loads of the landed slot and an accumulator value is the tile's step. -/
theorem step_eq (off0 off1 : Fin 4 → Nat) (inb0 : ∀ a, off0 a + S1x17x256x256.size a ≤ S2x18x256x256.size a)
    (inb1 : ∀ a, off1 a + S1x17x256x256.size a ≤ S2x18x256x256.size a)
    (h0 : off0 = ![(Ring.sl 2 (t.val % 15)).val, 0, 0, 0]) (h1 : off1 = ![(Ring.sl 2 (t.val % 15)).val, 1, 0, 0])
    (X a : Vec F S256x256 .f32) (hX : X = a) :
    k0_pay4 (k0_pay3 (scM0.view.readAt (Elt F) (Rect.unit (s := S2x18x256x256) off0 S1x17x256x256.size inb0).toLoadRect
        ((rslot (Ring.sl 2 (t.val % 15))).view.writes (Elt F) (rslot (Ring.sl 2 (t.val % 15))).view.junk
          [⟨Rect.whole S18x256x256, ReadAs.same.apply ((srcB (rowOf t) (Ring.bk 15 (t.val % 15))).view.read (Elt F) fh0)⟩])))
      (scM0.view.readAt (Elt F) (Rect.unit (s := S2x18x256x256) off1 S1x17x256x256.size inb1).toLoadRect
        ((rslot (Ring.sl 2 (t.val % 15))).view.writes (Elt F) (rslot (Ring.sl 2 (t.val % 15))).view.junk
          [⟨Rect.whole S18x256x256, ReadAs.same.apply ((srcB (rowOf t) (Ring.bk 15 (t.val % 15))).view.read (Elt F) fh0)⟩]))
      X = stepOf c t fh0 a := by
  unfold stepOf KV.accStep
  rw [lo_read c _ _ _ fh0 off0 inb0 h0, hi_read c _ _ _ fh0 off1 inb1 h1, hX]

theorem accA_eq (hc1 : k0_cond1 (grid0.coords t) = 1#1) (hc2 : ¬ k0_cond2 (grid0.coords t) = 1#1) :
    VA.read (Elt F) (VA.writes (Elt F) VA.junk (kernelRun_A c t arg3 harg3 hc1 hc2 fh0).1.2) = stepOf c t fh0 (k0_pay2 (F := F)) := by
  rw [View.read_writes_eq_canon _ _ _ (View.cover_of_wholeMem _ (by sl_whole_mem))]
  unfold kernelRun_A
  dsimp only
  sl_unfold_words
  rw [View.canon_cons_unit_zero hz2]
  exact step_eq c t fh0 _ _ _ _ (coff_ld0 t) (coff_ld1 t) _ _ (View.readCov_unit_zero _ hz2 _ _)

theorem outA_eq (hc1 : k0_cond1 (grid0.coords t) = 1#1) (hc2 : ¬ k0_cond2 (grid0.coords t) = 1#1) :
    VO.read (Elt F) (VO.writes (Elt F) VO.junk (kernelRun_A c t arg3 harg3 hc1 hc2 fh0).1.1) = k0_pay1 (k0_pay5 (stepOf c t fh0 (k0_pay2 (F := F)))) := by
  rw [View.read_writes_eq_canon _ _ _ (View.cover_of_wholeMem _ (by sl_whole_mem))]
  unfold kernelRun_A
  dsimp only
  sl_unfold_words
  rw [View.canon_unit_zero (S := S1x1x1) hz3]
  refine congrArg k0_pay1 (congrArg k0_pay5 ?_)
  rw [View.readCov_eq_canon_ld _ _ _ (View.cover_of_wholeMem _ (by sl_whole_mem)), View.canon_cons_unit_zero hz2, View.ld_unit_zero (S := S256x256) hz2]
  exact step_eq c t fh0 _ _ _ _ (coff_ld0 t) (coff_ld1 t) _ _ (View.readCov_unit_zero _ hz2 _ _)

theorem accB_eq (hc1 : ¬ k0_cond1 (grid0.coords t) = 1#1) (hc2 : k0_cond2 (grid0.coords t) = 1#1) :
    VA.read (Elt F) (VA.writes (Elt F) VA.junk (kernelRun_B c t arg3 harg3 hc1 hc2 fh0 a0).1.2) = stepOf c t fh0 a0 := by
  rw [View.read_writes_eq_canon _ _ _ (View.cover_of_wholeMem _ (by sl_whole_mem))]
  unfold kernelRun_B
  dsimp only
  sl_unfold_words
  rw [View.canon_unit_zero hz2]
  exact step_eq c t fh0 _ _ _ _ (coff_ld0 t) (coff_ld1 t) _ _
    (by simp only [View.readAt_eq_ld, View.ld_unit_zero (S := S256x256) hz2]; exact (Memref.isWhole_whole cc0_scratch2).read_unread a0)

theorem outB_eq (hc1 : ¬ k0_cond1 (grid0.coords t) = 1#1) (hc2 : k0_cond2 (grid0.coords t) = 1#1) :
    VO.read (Elt F) (VO.writes (Elt F) VO.junk (kernelRun_B c t arg3 harg3 hc1 hc2 fh0 a0).1.1) = k0_pay1 (k0_pay5 (stepOf c t fh0 a0)) := by
  rw [View.read_writes_eq_canon _ _ _ (View.cover_of_wholeMem _ (by sl_whole_mem))]
  unfold kernelRun_B
  dsimp only
  sl_unfold_words
  rw [View.canon_unit_zero (S := S1x1x1) hz3]
  refine congrArg k0_pay1 (congrArg k0_pay5 ?_)
  rw [View.readCov_unit_zero _ hz2]
  exact step_eq c t fh0 _ _ _ _ (coff_ld0 t) (coff_ld1 t) _ _
    (by simp only [View.readAt_eq_ld, View.ld_unit_zero (S := S256x256) hz2]; exact (Memref.isWhole_whole cc0_scratch2).read_unread a0)

theorem accC_eq (hc1 : ¬ k0_cond1 (grid0.coords t) = 1#1) (hc2 : ¬ k0_cond2 (grid0.coords t) = 1#1) :
    VA.read (Elt F) (VA.writes (Elt F) VA.junk (kernelRun_C c t arg3 harg3 hc1 hc2 fh0 a0).1.2) = stepOf c t fh0 a0 := by
  rw [View.read_writes_eq_canon _ _ _ (View.cover_of_wholeMem _ (by sl_whole_mem))]
  unfold kernelRun_C
  dsimp only
  sl_unfold_words
  rw [View.canon_unit_zero hz2]
  exact step_eq c t fh0 _ _ _ _ (coff_ld0 t) (coff_ld1 t) _ _
    (by simp only [View.readAt_eq_ld, View.ld_unit_zero (S := S256x256) hz2]; exact (Memref.isWhole_whole cc0_scratch2).read_unread a0)

theorem outC_eq (hc1 : ¬ k0_cond1 (grid0.coords t) = 1#1) (hc2 : ¬ k0_cond2 (grid0.coords t) = 1#1) :
    VO.read (Elt F) (VO.writes (Elt F) VO.junk (kernelRun_C c t arg3 harg3 hc1 hc2 fh0 a0).1.1) = k0_pay1 (k0_pay5 (stepOf c t fh0 a0)) := by
  rw [View.read_writes_eq_canon _ _ _ (View.cover_of_wholeMem _ (by sl_whole_mem))]
  unfold kernelRun_C
  dsimp only
  sl_unfold_words
  rw [View.canon_unit_zero (S := S1x1x1) hz3]
  refine congrArg k0_pay1 (congrArg k0_pay5 ?_)
  rw [View.readCov_unit_zero _ hz2]
  exact step_eq c t fh0 _ _ _ _ (coff_ld0 t) (coff_ld1 t) _ _
    (by simp only [View.readAt_eq_ld, View.ld_unit_zero (S := S256x256) hz2]; exact (Memref.isWhole_whole cc0_scratch2).read_unread a0)

end Values

/-! ## The proof data -/

/-- The row of point n. -/
def rowN (n : ℕ) : Fin 2 := ⟨n / 15 % 2, Nat.mod_lt _ (by decide)⟩
omit [FloatOps F] in
theorem rowOf_eq (t : Fin cfg0.N) : rowOf t = rowN t.val :=
  Fin.ext (by have h : t.val < 30 := lt_of_lt_of_eq t.isLt (show cfg0.N = 30 from N_0); show t.val / 15 = t.val / 15 % 2; omega)

/-- The accumulator after point n: the row's tiles up to the point's step, accumulated from zero. -/
def accAt (c : Dev nD) (n : ℕ) : Vec F S256x256 .f32 := KV.accRow (V m c main_arg0) (rowN n) (n % 15)

theorem accAt_first (c : Dev nD) (n : ℕ) (h : n % 15 = 0) :
    accAt m c n = KV.accStep (KV.slab (V m c main_arg0) (rowN n) (Ring.bk 15 (n % 15))) (k0_pay2 (F := F)) := by
  unfold accAt; rw [h]; rfl
theorem accAt_next (c : Dev nD) (n : ℕ) (h : ¬ n % 15 = 0) :
    accAt m c n = KV.accStep (KV.slab (V m c main_arg0) (rowN n) (Ring.bk 15 (n % 15))) (accAt m c (n - 1)) := by
  obtain ⟨k, hk⟩ : ∃ k, n % 15 = k + 1 := ⟨n % 15 - 1, by omega⟩
  have e1 : (n - 1) % 15 = k := by omega
  have e2 : rowN (n - 1) = rowN n := Fin.ext (by show (n - 1) / 15 % 2 = n / 15 % 2; omega)
  unfold accAt; rw [hk, e1, e2]; rfl

/-- The accumulator's part of the invariant before point n. -/
def accP (c : Dev nD) (n : ℕ) : sProp 𝕄 :=
  if n % 15 = 0 then iprop(∃ d, owns (c : Thread nD τ) scM2 fullShare d) else owns (c : Thread nD τ) scM2 fullShare (accAt m c (n - 1))

/-- The region invariant before point n. -/
def PhiR (c : Dev nD) (n : ℕ) : sProp 𝕄 :=
  iprop((∃ r, prngReg c r) ∗ accP m c n ∗ ringAt c (V m c main_arg0) (rowN n) (n % 15))

/-- The proof data of the one pipeline on core c. -/
def dats (_ : Fin 1) (c : Dev nD) : Dat τ (Elt F) Unit ℕ (Pipeline.UD sig nD τ) ℕ cfg0 c where
  A w := V m c (Pipeline.arrRef spec0 w)
  after w t := match w with
    | ⟨0, _⟩ => k0_pay1 (k0_pay5 (accAt m c t.val))
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = k0_pay1 (k0_pay5 (accAt m c t.val)) := by dsimp only [dats]

/-! ## The ring between a row's last step and the next row's first -/

section Rest
variable (c : Dev nD) (W : HbBuf0 (F := F) c hbM0) (r : Fin 2)
theorem last_rest (k : ℕ) (hk : k = 14) :
    iprop(Ring.kept (cellP (F := F) c) (slotW c W) (landed c W r) (Ring.sl 2 (k + 1)) (Ring.bk 15 (k - 1))
        ∗ Ring.kept (cellP (F := F) c) (slotW c W) (landed c W r) (Ring.sl 2 k) (Ring.bk 15 k))
      ⊢ Ring.At₀ (cellP (F := F) c) (slotW c W) noHome := by
  subst hk
  have e1 : Ring.sl 2 (14 + 1) = (1 : Fin 2) := rfl
  have e0 : Ring.sl 2 14 = (0 : Fin 2) := rfl
  rw [e1, e0]
  iintro ⟨H1, H0⟩
  iapply (rest_at0 (F := F) c W)
  iapply Ring.with_homes₀
  isplitl [H0]
  · iapply (Ring.free_of_kept (cellP (F := F) c) (slotW c W) (landed c W r) 0 _); iexact H0
  · iapply (Ring.free_of_kept (cellP (F := F) c) (slotW c W) (landed c W r) 1 _); iexact H1
theorem at0_out :
    Ring.At₀ (cellP (F := F) c) (slotW c W) noHome
      ⊢ iprop((∃ d, owns (c : Thread nD τ) scM0 fullShare d) ∗ (semVal ((c : Thread nD τ), SemLoc.dma 2) 0 ∗ semVal ((c : Thread nD τ), SemLoc.dma 3) 0) ∗ hbPt0 c hbM0 W) := by
  unfold Ring.At₀
  rw [Ring.bigSep_fin2]
  exact rest_out (F := F) c W
end Rest

/-! ## The body obligation -/

abbrev ms0 (t : Fin cfg0.N) : Memref sig .tc .vmem S1x1x1 .f32 := win0_0.stage (cfg0.slots t 0)
abbrev hs0 (t : Fin cfg0.N) : (ms0 t).IsWhole := hstage0_0 ((cfg0.slots t 0).cast nbuf0_0)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0]
  rw [PhiR_castSucc m c t, PhiR_succ m c t]
  unfold Dat.owesAt Pipeline.owesWithin
  rw [show (dats m 0 c).owed t.castSucc = 0 from rfl, show (dats m 0 c).owed t.succ = 0 from rfl]
  unfold PhiR accP ringAt
  have hN : t.val < 30 := lt_of_lt_of_eq t.isLt (show cfg0.N = 30 from N_0)
  by_cases h0 : t.val % 15 = 0
  · -- a row's first step
    have e1 : (t.val + 1) % 15 = t.val % 15 + 1 := by omega
    have e2 : rowN (t.val + 1) = rowN t.val := Fin.ext (by show (t.val + 1) / 15 % 2 = t.val / 15 % 2; omega)
    have hc1 : k0_cond1 (grid0.coords t) = 1#1 := (hcond1 t).mpr h0
    have hc2 : ¬ k0_cond2 (grid0.coords t) = 1#1 := fun h => by have := (hcond2 t).mp h; omega
    rw [e1, e2, if_pos h0, if_pos h0, if_neg (show ¬ t.val % 15 + 1 = 0 by omega), if_neg (show ¬ t.val % 15 + 1 = 0 by omega), Nat.add_sub_cancel]
    rw [Ring.At₀_eq2' _ _ _ (t.val % 15) h0 (by decide : 2 ≤ 15), Ring.AtK2_one' _ _ _ _ _ (t.val % 15) h0 (by decide : 1 < 15)]
    rw [accAt_first m c t.val h0, ← rowOf_eq t]
    iintro ⟨⟨Hg, ⟨%d2, H2⟩, ⟨-, Hfr0, Hfr1⟩⟩, ⟨%W, -, HW⟩, ⟨%d0, H0⟩⟩
    iapply ((kernelRun_A c t _ _ hc1 hc2 (V m c main_arg0)).2 W _)
    isplitl [H0]; · iexists _; iexact H0
    isplitl [Hfr0]; · iexact Hfr0
    isplitl [Hfr1]; · iexact Hfr1
    isplitl [H2]; · iexists _; iexact H2
    isplitl [HW]; · iexact HW
    iintro ⟨⟨%e0, H0⟩, Hfl', Hkp', ⟨%e2', H2'⟩, ⟨%W', HW'⟩⟩
    isplitl [Hg Hfl' Hkp' H2']
    · isplitl [Hg]; · iexact Hg
      isplitl [H2']
      · unfold owns; iexists _; isplitr
        swap; · iexact H2'
        ipureintro
        exact (View.read_writes_of_cover _ _ _ _ _ (View.cover_of_wholeMem _ (by sl_whole_mem))).trans (accA_eq c t _ _ (V m c main_arg0) hc1 hc2)
      iapply Ring.with_homes₀
      isplitl [Hfl']; · iexact Hfl'
      iexact Hkp'
    isplitl [HW']
    · iexists W'; isplitr; · ipureintro; exact fun _ _ => Or.inl trivial
      iexact HW'
    unfold owns; iexists _; isplitr
    swap; · iexact H0
    ipureintro
    exact (View.read_writes_of_cover _ _ _ _ _ (View.cover_of_wholeMem _ (by sl_whole_mem))).trans (outA_eq c t _ _ (V m c main_arg0) hc1 hc2)
  · have hc1 : ¬ k0_cond1 (grid0.coords t) = 1#1 := fun h => h0 ((hcond1 t).mp h)
    have h1 : 1 ≤ t.val % 15 := by omega
    by_cases h14 : t.val % 15 = 14
    · -- a row's last step
      have e0' : (t.val + 1) % 15 = 0 := by omega
      have hc2 : ¬ k0_cond2 (grid0.coords t) = 1#1 := fun h => by have := (hcond2 t).mp h; omega
      rw [if_neg h0, if_neg h0, e0', if_pos rfl, if_pos rfl]
      rw [Ring.AtK2_here_last _ _ _ _ _ (t.val % 15) h1 (by omega : t.val % 15 + 1 = 15)]
      rw [accAt_next m c t.val h0, ← rowOf_eq t]
      iintro ⟨⟨Hg, H2, ⟨-, Hfl, Hkp⟩⟩, ⟨%W, -, HW⟩, ⟨%d0, H0⟩⟩
      iapply ((kernelRun_C c t _ _ hc1 hc2 (V m c main_arg0) (accAt m c (t.val - 1))).2 W _)
      isplitl [H0]; · iexists _; iexact H0
      isplitl [Hfl]; · iexact Hfl
      isplitl [H2]; · iexact H2
      isplitl [HW]; · iexact HW
      iintro ⟨⟨%e0, H0⟩, Hkp', ⟨%e2', H2'⟩, ⟨%W', HW'⟩⟩
      isplitl [Hg Hkp Hkp' H2']
      · isplitl [Hg]; · iexact Hg
        isplitl [H2']; · iexists _; unfold owns; iexists _; isplitr
                         swap; · iexact H2'
                         ipureintro; rfl
        iapply (last_rest (F := F) c (V m c main_arg0) (rowOf t) (t.val % 15) h14)
        isplitl [Hkp]; · iexact Hkp
        iexact Hkp'
      isplitl [HW']
      · iexists W'; isplitr; · ipureintro; exact fun _ _ => Or.inl trivial
        iexact HW'
      unfold owns; iexists _; isplitr
      swap; · iexact H0
      ipureintro
      exact (View.read_writes_of_cover _ _ _ _ _ (View.cover_of_wholeMem _ (by sl_whole_mem))).trans (outC_eq c t _ _ (V m c main_arg0) _ hc1 hc2)
    · -- a middle step
      have hB : t.val % 15 + 1 < 15 := by omega
      have e1 : (t.val + 1) % 15 = t.val % 15 + 1 := by omega
      have e2 : rowN (t.val + 1) = rowN t.val := Fin.ext (by show (t.val + 1) / 15 % 2 = t.val / 15 % 2; omega)
      have hc2 : k0_cond2 (grid0.coords t) = 1#1 := (hcond2 t).mpr ⟨h1, hB⟩
      rw [e1, e2, if_neg h0, if_neg h0, if_neg (show ¬ t.val % 15 + 1 = 0 by omega), if_neg (show ¬ t.val % 15 + 1 = 0 by omega), Nat.add_sub_cancel]
      rw [Ring.AtK2_here _ _ _ _ _ (t.val % 15) h1 hB, Ring.AtK2_next _ _ _ _ _ (t.val % 15) h1 hB]
      rw [accAt_next m c t.val h0, ← rowOf_eq t]
      iintro ⟨⟨Hg, H2, ⟨-, Hfl, Hkp⟩⟩, ⟨%W, -, HW⟩, ⟨%d0, H0⟩⟩
      iapply ((kernelRun_B c t _ _ hc1 hc2 (V m c main_arg0) (accAt m c (t.val - 1))).2 W _)
      isplitl [H0]; · iexists _; iexact H0
      isplitl [Hfl]; · iexact Hfl
      isplitl [Hkp]; · iexact Hkp
      isplitl [H2]; · iexact H2
      isplitl [HW]; · iexact HW
      iintro ⟨⟨%e0, H0⟩, Hfl', Hkp', ⟨%e2', H2'⟩, ⟨%W', HW'⟩⟩
      isplitl [Hg Hfl' Hkp' H2']
      · isplitl [Hg]; · iexact Hg
        isplitl [H2']
        · unfold owns; iexists _; isplitr
          swap; · iexact H2'
          ipureintro
          exact (View.read_writes_of_cover _ _ _ _ _ (View.cover_of_wholeMem _ (by sl_whole_mem))).trans (accB_eq c t _ _ (V m c main_arg0) _ hc1 hc2)
        iapply (Ring.with_homes (Idealize.SL.BI.Entails.refl _))
        isplitl [Hfl']; · iexact Hfl'
        iexact Hkp'
      isplitl [HW']
      · iexists W'; isplitr; · ipureintro; exact fun _ _ => Or.inl trivial
        iexact HW'
      unfold owns; iexists _; isplitr
      swap; · iexact H0
      ipureintro
      exact (View.read_writes_of_cover _ _ _ _ _ (View.cover_of_wholeMem _ (by sl_whole_mem))).trans (outB_eq c t _ _ (V m c main_arg0) _ hc1 hc2)

theorem body_obligation (c : Dev nD) : BodyObligation (dats (F := F) m 0 c) (defs₀ (F := F)) Variants.none () Set.univ := fun t => by
  rw [bigSep_W0, bigSep_W0]
  exact sound_body m c t

/-! ## The launch's hand-over and the run -/

theorem hin (c : Dev nD) : Pipeline.ΦD osem0 spec0 H0 (V m) c ⊢ (dats m 0 c).Φ 0 := by
  rw [PhiD0_eq, show (dats m 0 c).Φ 0 = PhiR m c 0 from rfl]
  unfold PhiR accP ringAt
  rw [if_pos (by decide : 0 % 15 = 0), if_pos (by decide : 0 % 15 = 0)]
  iintro ⟨⟨HS0, HS2⟩, Hg, Hq, Hh⟩
  isplitl [Hg]; · iexact Hg
  isplitl [HS2]; · iexact HS2
  iapply (rest_in (F := F) c (V m c main_arg0))
  isplitl [HS0]; · iexact HS0
  isplitl [Hq]; · iexact Hq
  iexact Hh
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR accP ringAt
  rw [show grid0.N = 30 by rw [N_0]]
  rw [if_pos (by decide : 30 % 15 = 0), if_pos (by decide : 30 % 15 = 0)]
  iintro ⟨Hg, HS2, Hring⟩
  ihave HX := (at0_out (F := F) c (V m c main_arg0)) $$ Hring
  icases HX with ⟨HS0, Hq, Hh⟩
  isplitl [HS0 HS2]
  · isplitl [HS0]; · iexact HS0
    iexact HS2
  isplitl [Hg]; · iexact Hg
  isplitl [Hq]; · iexact Hq
  iexact Hh

/-- The host lines after the region touch the pipeline's arrays and the bypassing buffers other than the argument. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  have hb' : b = main_arg0 := by simpa [H0] using hb
  subst hb'
  simp only [hostOps1, List.mem_cons, List.mem_nil_iff, or_false] at hop
  rcases hop with rfl | rfl | rfl | rfl | rfl | rfl <;>
    simp only [StableHlo.nullary_bufs, StableHlo.binary_bufs, Finset.mem_insert, Finset.mem_singleton, not_or] <;>
    (try refine ⟨?_, ?_, ?_⟩) <;> exact StableHlo.devRef_ne_of_ne (by decide)

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hmain := hmainD m Variants.none) (hA := A_eq m) (hin := hin m) (hout := hout m)

/-- The argument array is no window's array and no host line after the region writes it: it ends as launched. -/
theorem W_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame: every weakly fair execution terminates, nothing faults, the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_arg0 m c))) (run_main m ρ)

end Cert.KernelIdeal.KF

end
-- ==== Proof.KOut.lean ====
import proofs.«407983_j88124138979534_4_alg».proof.Proof.Data
import Idealize.ShloMosaic.Lib.Pipeline.Value
import Idealize.ShloMosaic.Lib.StableHlo.Run

/-!
The program's result after the run.

The output window has one block per batch row, written back once, after the row's last point; what that point
leaves in the block is the total of the row's accumulator after its last tile, so the output array ends at the
kernel's output array as a function of the argument.  The host lines after the region sum the array and divide
twice; read off the run's post this is the program's result as one function of the argument array, and the
argument array itself ends as launched.
-/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

/-- The output window's block index at point t: the row t / 15 on the first axis, zero on the two unit axes. -/
private theorem idx_facts : ∀ t : Fin cfg0.N, win0_0.index t (0 : Fin 3) = t.val / 15
    ∧ win0_0.index t (1 : Fin 3) = 0 ∧ win0_0.index t (2 : Fin 3) = 0 :=
  (by decide +kernel : ∀ t : Fin grid0.N, win0_0.index t (0 : Fin 3) = t.val / 15
    ∧ win0_0.index t (1 : Fin 3) = 0 ∧ win0_0.index t (2 : Fin 3) = 0)

/-- The total of row b's accumulator after its last tile, read at the one index of the output block, is the
    output array's entry at any index of row b. -/
private theorem total_outArr (W : Vec F S2x1x256x256x256 .f32) (A : Vec F S256x256 .f32) (b : Fin 2)
    (hA : A = KV.accRow W b 14) (y : S1x1x1.Idx) (j : S2x1x1.Idx) (hj : (j 0).val = b.val) :
    k0_pay1 (k0_pay5 A) y = KV.outArr W j := by
  subst hA
  have hy : y = ix3 (0 : Fin 1) (0 : Fin 1) (0 : Fin 1) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext (by have h : (y 2).val < 1 := (y 2).isLt; show (y 2).val = 0; omega)
  have hb : (⟨(j 0).val, (j 0).isLt⟩ : Fin 2) = b := Fin.ext hj
  unfold KV.outArr KV.outAt
  rw [hb, hy]

/-- The output array after the run. -/
theorem final (c : Dev nD) : (dats m 0 c).arrAt 0 cfg0.N = KV.outArr (V m c main_arg0) := by
  refine (dats m 0 c).arrAt_eq_of_cover 0 (KV.outArr (V m c main_arg0)) (fun t hf => ?_) (fun i => ?_)
  · show (cfg0.win 0).cut (grid0.coords t) ((dats m 0 c).after 0 t) = _
    rw [after0_0]
    have hk : t.val % 15 = 14 := (flush0_0 t).mp hf
    have hN : t.val < 30 := lt_of_lt_of_eq t.isLt (show cfg0.N = 30 from N_0)
    funext y
    refine total_outArr (V m c main_arg0) (accAt m c t.val) (rowN t.val) ?_ y (((cfg0.win 0).blk t).view.emb y) ?_
    · unfold accAt; rw [hk]
    · show win0_0.index t (0 : Fin 3) * 1 + 1 * (y 0).val = t.val / 15 % 2
      have hy0 : (y 0).val < 1 := (y 0).isLt
      rw [(idx_facts t).1]
      omega
  · have hi0 : (i 0).val < 2 := (i 0).isLt
    have hi1 : (i 1).val < 1 := (i 1).isLt
    have hi2 : (i 2).val < 1 := (i 2).isLt
    have hN : cfg0.N = 30 := N_0
    have hlt : 15 * (i 0).val + 14 < cfg0.N := by rw [hN]; omega
    refine ⟨⟨15 * (i 0).val + 14, hlt⟩, (flush0_0 _).mpr (by show (15 * (i 0).val + 14) % 15 = 14; omega), ?_⟩
    show i ∈ ((View.whole main_v0).slice (win0_0.rect ⟨15 * (i 0).val + 14, hlt⟩)).set
    rw [View.set_slice_whole, Rect.mem_set_unit]
    intro a
    match a with
    | ⟨0, _⟩ =>
      show win0_0.index _ (0 : Fin 3) * 1 ≤ (i 0).val ∧ (i 0).val < win0_0.index _ (0 : Fin 3) * 1 + 1
      rw [(idx_facts _).1]
      show (15 * (i 0).val + 14) / 15 * 1 ≤ (i 0).val ∧ (i 0).val < (15 * (i 0).val + 14) / 15 * 1 + 1
      omega
    | ⟨1, _⟩ =>
      show win0_0.index _ (1 : Fin 3) * 1 ≤ (i 1).val ∧ (i 1).val < win0_0.index _ (1 : Fin 3) * 1 + 1
      rw [(idx_facts _).2.1]
      omega
    | ⟨2, _⟩ =>
      show win0_0.index _ (2 : Fin 3) * 1 ≤ (i 2).val ∧ (i 2).val < win0_0.index _ (2 : Fin 3) * 1 + 1
      rw [(idx_facts _).2.2]
      omega

/-- The result buffer after the host lines. -/
theorem result_tail (c : Dev nD) :
    Pipeline.afterTail₀ cfgs (dats m) 0 (V0 m) [hostOps1] c main_v3 = KV.result (V m c main_arg0) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0)
      = KV.outArr (V m c main_arg0) :=
    (Pipeline.withArrays_arr spec0 launch0.win.arr_inj c _ _ 0).trans (final m c)
  rw [e]
  rfl

/-- The run with its result named: every weakly fair execution terminates, nothing faults, the result is the
    program's function of the argument array, and the argument array ends unchanged. -/
theorem run_value : θ_run defs (onTc (τ := τ) (main (F := F))) ⟨m, fun _ => 0, ρ⟩ (fun r => ∀ c : Dev nD,
      r.2.mem ((c.tc : Thread nD τ).loc main_v3) = KV.result (m ((c.tc : Thread nD τ).loc main_arg0))
      ∧ r.2.mem ((c.tc : Thread nD τ).loc main_arg0) = m ((c.tc : Thread nD τ).loc main_arg0)) := by
  exact (θ_run defs _ _).mono (fun _ h c =>
      ⟨((h c).2 main_v3 (Pipeline.mem_restRefs_of main_v3 (by decide) (by decide))).trans
          ((result_tail m c).trans (congrArg KV.result (V_main_arg0 m c))),
        ((h c).2 main_arg0 (Pipeline.mem_restRefs_of main_arg0 (by decide) (by decide))).trans (W_arg0 m c)⟩)
      (run_main m ρ)

end Cert.KernelIdeal.KF

end
-- ==== Proof.KPay.lean ====
import proofs.«407983_j88124138979534_4_alg».proof.Proof.KDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Predicate
import Idealize.ShloMosaic.Lib.WordArith

/-!
The body's payloads at the exact floats, on real data, read at an index.

A slab of 18 depth rows of reals and an accumulator plane of reals go to the plane plus, per row and column,
the sum over the slab's 17 rows d of |256 * sqrt(dd^2 + dh^2 + dw^2) - 1| times the 0/1 boundary mask, where dd is
the difference to slab row d + 1, dh to the cyclically next row, dw to the cyclically next column (a rotation by
255 of an axis of 256 reads the next index).  The zero payload is the zero plane, and the total payload of a real
plane is the sum of its entries (columns first, then rows).
-/

noncomputable section

namespace Cert.KernelIdeal.KV

open Idealize.ShloMosaic Idealize.ShloMosaic.TcCoe Idealize.SL.Sem Cert.KernelIdeal Cert.KernelIdeal.Gen
open Idealize.ShloMosaic.ValueIdx

/-- A slab and a plane of real numbers. -/
abbrev RSlab : Type := Fin 18 → Fin 256 → Fin 256 → ℝ
abbrev RPlane : Type := Fin 256 → Fin 256 → ℝ

/-- A real slab as the body's 18 x 256 x 256 vector of extended reals. -/
def liftSlab (s : RSlab) : Vec Ideal S18x256x256 .f32 :=
  fun y => ((s (⟨(y 0).val, (y 0).isLt⟩ : Fin 18) (⟨(y 1).val, (y 1).isLt⟩ : Fin 256) (⟨(y 2).val, (y 2).isLt⟩ : Fin 256) : ℝ) : EReal)

/-- A real plane as the body's 256 x 256 vector of extended reals. -/
def liftPlane (a : RPlane) : Vec Ideal S256x256 .f32 :=
  fun y => ((a (⟨(y 0).val, (y 0).isLt⟩ : Fin 256) (⟨(y 1).val, (y 1).isLt⟩ : Fin 256) : ℝ) : EReal)

/-- The summand of slab row d at (h, w). -/
def termS (s : RSlab) (d : Fin 17) (h w : Fin 256) : ℝ :=
  |256 * Real.sqrt ((s d.castSucc h w - s d.succ h w) * (s d.castSucc h w - s d.succ h w)
      + (s d.castSucc h w - s d.castSucc (Eik.nx h) w) * (s d.castSucc h w - s d.castSucc (Eik.nx h) w)
      + (s d.castSucc h w - s d.castSucc h (Eik.nx w)) * (s d.castSucc h w - s d.castSucc h (Eik.nx w))) - 1|
    * (if h.val < 255 ∧ w.val < 255 then 1 else 0)

/-- A finite sum of coerced reals is the coerced sum. -/
private theorem coe_sum {ι : Type} (t : Finset ι) (f : ι → ℝ) :
    (∑ i ∈ t, ((f i : ℝ) : EReal)) = ((∑ i ∈ t, f i : ℝ) : EReal) := by
  classical
  induction t using Finset.induction_on with
  | empty => simp
  | insert i t hi ih => rw [Finset.sum_insert hi, Finset.sum_insert hi, ih, EReal.coe_add]

/-- A lane sum over the columns of a plane, read at a row: the sum of the row's entries. -/
private theorem rowSum_apply (v : Vec Ideal S256x256 .f32) (hacc : (0x00000000#32 : BitVec 32) = 0x00000000#32) (k : Fin 256) :
    multiReduction (F := Ideal) .add [1] S256 v 0x00000000#32 reduces_S256x256_S256 (.inl rfl) hacc (ix1 k)
      = ∑ w : Fin 256, v (ix2 k w) := by
  refine (Ideal.multiReduction_add_single v 0x00000000#32 reduces_S256x256_S256 (.inl rfl) hacc (ix1 k)).trans ?_
  refine Finset.sum_congr rfl fun w _ => congrArg v ?_
  funext a
  match a with
  | ⟨0, _⟩ => rfl
  | ⟨1, _⟩ => rfl

/-- A lane sum over the rows of a one-column array, read at its one entry: the sum of the column. -/
private theorem colSum_apply (v : FVec Ideal S256x1 .f32) (hacc : (0x00000000#32 : BitVec 32) = 0x00000000#32) (i : Fin 1) :
    multiReduction (F := Ideal) .add [0] S1 v 0x00000000#32 reduces_S256x1_S1 (.inl rfl) hacc (ix1 i)
      = ∑ k : Fin 256, v (ix2 k i) := by
  refine (Ideal.multiReduction_add_single v 0x00000000#32 reduces_S256x1_S1 (.inl rfl) hacc (ix1 i)).trans ?_
  refine Finset.sum_congr rfl fun k _ => congrArg v ?_
  funext a
  match a with
  | ⟨0, _⟩ => rfl
  | ⟨1, _⟩ => rfl

/-- A vector of 256 entries viewed as one column reads, at row k, entry k (same row-major position). -/
private theorem column_apply {α : Type} (x : S256.Idx → α) (h : S256.ShapeCasts S256x1) (k : Fin 256) (i : Fin 1) :
    shapeCast S256x1 x h (ix2 k i) = x (ix1 k) :=
  shapeCast_apply x h _ _ (by
    have hi : i.val = 0 := by omega
    rw [Shape.rowMajor_val_two, Shape.rowMajor_val_one]
    show k.val = k.val * 1 + i.val
    rw [hi, Nat.mul_one, Nat.add_zero])

/-- The cyclically next index, as the rotated read spells it. -/
private theorem nx_val (p : Fin 256) : (Eik.nx p).val = (p.val + 256 - 255 % 256) % 256 := by
  show (p.val + 1) % 256 = _
  have := p.isLt
  omega

/-- A rotation by 255 along the rows reads the cyclically next row. -/
private theorem rotRow_apply {α : Type} (x : S17x256x256.Idx → α) (d : Fin 17) (p q : Fin 256) :
    dynamicRotate 1 255#32 none x rotates_S17x256x256_d1 (ix3 d p q) = x (ix3 d (Eik.nx p) q) :=
  dynamicRotate_apply 1 255#32 x rotates_S17x256x256_d1 (ix3 d p q) (ix3 d (Eik.nx p) q) fun b =>
    match b with
    | ⟨0, _⟩ => rfl
    | ⟨1, _⟩ => nx_val p
    | ⟨2, _⟩ => rfl

/-- A rotation by 255 along the columns reads the cyclically next column. -/
private theorem rotCol_apply {α : Type} (x : S17x256x256.Idx → α) (d : Fin 17) (p q : Fin 256) :
    dynamicRotate 2 255#32 none x rotates_S17x256x256_d2 (ix3 d p q) = x (ix3 d p (Eik.nx q)) :=
  dynamicRotate_apply 2 255#32 x rotates_S17x256x256_d2 (ix3 d p q) (ix3 d p (Eik.nx q)) fun b =>
    match b with
    | ⟨0, _⟩ => rfl
    | ⟨1, _⟩ => rfl
    | ⟨2, _⟩ => nx_val q

/-- Rows 0..16 of a real slab, the unit axis dropped: row d at (p, q). -/
private theorem lo_apply (s : RSlab) (d : Fin 17) (p q : Fin 256) :
    k0_pay3 (F := Ideal) (loRows (liftSlab s)) (ix3 d p q) = ((s d.castSucc p q : ℝ) : EReal) := by
  show shapeCast S17x256x256 (loRows (liftSlab s)) shapeCasts_S1x17x256x256_S17x256x256 (ix3 d p q) = _
  exact shapeCast_1abc_abc_apply _ shapeCasts_S1x17x256x256_S17x256x256 d p q

/-- Rows 1..17 of a real slab, the unit axis dropped: row d + 1 at (p, q). -/
private theorem hi_apply (s : RSlab) (d : Fin 17) (p q : Fin 256) :
    shapeCast S17x256x256 (hiRows (F := Ideal) (liftSlab s)) shapeCasts_S1x17x256x256_S17x256x256 (ix3 d p q)
      = ((s d.succ p q : ℝ) : EReal) :=
  shapeCast_1abc_abc_apply _ shapeCasts_S1x17x256x256_S17x256x256 d p q

/-- The two float constants of the body, as reals. -/
private theorem c256 : Ideal.ofBits .f32 0x43800000#32 = ((256 : ℝ) : EReal) := by
  simp [Ideal.ofBits, Ideal.ieee, -EReal.coe_mul]; norm_num
private theorem c1 : Ideal.ofBits .f32 0x3F800000#32 = ((1 : ℝ) : EReal) := by
  simp [Ideal.ofBits, Ideal.ieee, -EReal.coe_mul]; norm_num

/-- A coordinate below 256, compared signed with 255, as a bit. -/
private theorem slt255 (n : Nat) (hn : n < 256) :
    IntOp.cmpi .slt (BitVec.ofNat 32 n) 255#32 = BitVec.ofBool (decide (n < 255)) := by
  have ha : (BitVec.ofNat 32 n).toNat = n := by rw [BitVec.toNat_ofNat]; omega
  have hb : (255#32 : BitVec 32).toNat = 255 := rfl
  have hiff := StableHlo.Predicate.slt_iff_toNat (a := BitVec.ofNat 32 n) (b := 255#32) (by rw [ha]; omega) (by rw [hb]; omega)
  rw [ha, hb] at hiff
  by_cases h : n < 255
  · rw [hiff.mpr h, decide_eq_true h]; rfl
  · rw [eq_zero_of_ne_one (fun h1 => h (hiff.mp h1)), decide_eq_false h]; rfl

/-- The mask's word at (p, q), read signed: 1 inside the first 255 rows and columns, else 0. -/
private theorem maskWord (p q : Fin 256) :
    ((IntOp.andi (IntOp.cmpi .slt (BitVec.ofNat 32 p.val) 255#32) (IntOp.cmpi .slt (BitVec.ofNat 32 q.val) 255#32)).setWidth 32).toInt
      = if p.val < 255 ∧ q.val < 255 then 1 else 0 := by
  rw [slt255 p.val p.isLt, slt255 q.val q.isLt, WordArith.andi_ofBool, toInt_setWidth_bit]
  by_cases hp : p.val < 255 <;> by_cases hq : q.val < 255 <;> simp [hp, hq]

/-- The absolute value and the root of a vector of extended reals, read at an index. -/
private theorem absf_apply {s : Shape} {φ : FTy} (a : FVec Ideal s φ) (i : s.Idx) : absf a i = max (a i) (-(a i)) := rfl
private theorem sqrt_apply {s : Shape} {φ : FTy} (a : FVec Ideal s φ) (i : s.Idx) : sqrt a i = Ideal.sqrt (a i) := rfl

/-- The 0/1 boundary mask, broadcast over the 17 rows, read at (d, p, q). -/
private theorem mask_apply (d : Fin 17) (p q : Fin 256) :
    broadcastTo S17x256x256
        (sitofp (F := Ideal) .f32
          (extui 32
            (andi (cmpi .slt (iota .tc S1x256x256 32 [1] iota_S1x256x256_d1_w32) (broadcast S1x256x256 255#32))
              (cmpi .slt (iota .tc S1x256x256 32 [2] iota_S1x256x256_d2_w32) (broadcast S1x256x256 255#32)))
            natLt_1_32))
        broadcasts_S1x256x256_S17x256x256 (ix3 d p q)
      = (((if p.val < 255 ∧ q.val < 255 then 1 else 0 : ℝ)) : EReal) := by
  refine (broadcastTo_apply _ broadcasts_S1x256x256_S17x256x256 (ix3 d p q) (ix3 (0 : Fin 1) p q) (fun a =>
    match a with
    | ⟨0, _⟩ => rfl
    | ⟨1, _⟩ => rfl
    | ⟨2, _⟩ => rfl)).trans ?_
  show ((((IntOp.andi (IntOp.cmpi .slt (iota .tc S1x256x256 32 [1] iota_S1x256x256_d1_w32 (ix3 (0 : Fin 1) p q)) 255#32)
      (IntOp.cmpi .slt (iota .tc S1x256x256 32 [2] iota_S1x256x256_d2_w32 (ix3 (0 : Fin 1) p q)) 255#32)).setWidth 32).toInt : ℝ) : EReal) = _
  rw [iota_single_apply, iota_single_apply]
  show ((((IntOp.andi (IntOp.cmpi .slt (BitVec.ofNat 32 p.val) 255#32)
      (IntOp.cmpi .slt (BitVec.ofNat 32 q.val) 255#32)).setWidth 32).toInt : ℝ) : EReal) = _
  rw [maskWord]
  by_cases h : p.val < 255 ∧ q.val < 255
  · rw [if_pos h, if_pos h]; norm_num
  · rw [if_neg h, if_neg h]; norm_num

/-- The larger of two coerced reals is the coerced larger one (the coercion is monotone). -/
private theorem coe_max (a b : ℝ) : max (a : EReal) (b : EReal) = ((max a b : ℝ) : EReal) :=
  (EReal.coe_strictMono.monotone.map_max).symm

/-- One summand on real data: the scaled root of the three squared differences, less one, in absolute value, times the mask. -/
private theorem entry_coe (c n r w m : ℝ) :
    max (Ideal.ofBits .f32 0x43800000#32 * Ideal.sqrt (((c : EReal) - n) * ((c : EReal) - n) + ((c : EReal) - r) * ((c : EReal) - r)
          + ((c : EReal) - w) * ((c : EReal) - w)) - Ideal.ofBits .f32 0x3F800000#32)
        (-(Ideal.ofBits .f32 0x43800000#32 * Ideal.sqrt (((c : EReal) - n) * ((c : EReal) - n) + ((c : EReal) - r) * ((c : EReal) - r)
          + ((c : EReal) - w) * ((c : EReal) - w)) - Ideal.ofBits .f32 0x3F800000#32)) * (m : EReal)
      = ((|256 * Real.sqrt ((c - n) * (c - n) + (c - r) * (c - r) + (c - w) * (c - w)) - 1| * m : ℝ) : EReal) := by
  have hnn : ¬ ((c - n) * (c - n) + (c - r) * (c - r) + (c - w) * (c - w) < 0) :=
    not_lt.mpr (add_nonneg (add_nonneg (mul_self_nonneg _) (mul_self_nonneg _)) (mul_self_nonneg _))
  rw [c256, c1, ← EReal.coe_sub, ← EReal.coe_sub, ← EReal.coe_sub, ← EReal.coe_mul, ← EReal.coe_mul, ← EReal.coe_mul,
    ← EReal.coe_add, ← EReal.coe_add, Ideal.sqrt_coe, if_neg hnn, ← EReal.coe_mul, ← EReal.coe_sub, ← EReal.coe_neg,
    coe_max, ← abs_eq_max_neg, ← EReal.coe_mul]

/-- Rows read through the cast that drops the leading unit axis. -/
private theorem dropUnit_apply {α : Type} (x : S1x17x256x256.Idx → α) (d : Fin 17) (p q : Fin 256) :
    shapeCast S17x256x256 x shapeCasts_S1x17x256x256_S17x256x256 (ix3 d p q) = x (ix4 (0 : Fin 1) d p q) :=
  shapeCast_1abc_abc_apply x shapeCasts_S1x17x256x256_S17x256x256 d p q

/-- The accumulator payload at (p, q), on vectors whose entries are reals: the accumulator's entry plus the sum over the
    17 rows of the masked summands, each formed from a row's entry, its depth neighbour and its cyclic row and column
    neighbours. -/
private theorem pay4_apply (v29 : FVec Ideal S17x256x256 .f32) (v31 : Vec Ideal S1x17x256x256 .f32) (v60 : Vec Ideal S256x256 .f32)
    (p q : Fin 256) (A B : Fin 17 → Fin 256 → Fin 256 → ℝ) (c : ℝ)
    (h29 : ∀ d h w, v29 (ix3 d h w) = ((A d h w : ℝ) : EReal))
    (h31 : ∀ d h w, v31 (ix4 (0 : Fin 1) d h w) = ((B d h w : ℝ) : EReal))
    (h60 : v60 (ix2 p q) = ((c : ℝ) : EReal)) :
    k0_pay4 v29 v31 v60 (ix2 p q)
      = ((c + ∑ d : Fin 17, |256 * Real.sqrt ((A d p q - B d p q) * (A d p q - B d p q)
            + (A d p q - A d (Eik.nx p) q) * (A d p q - A d (Eik.nx p) q)
            + (A d p q - A d p (Eik.nx q)) * (A d p q - A d p (Eik.nx q))) - 1|
          * (if p.val < 255 ∧ q.val < 255 then 1 else 0) : ℝ) : EReal) := by
  unfold k0_pay4
  dsimp only
  refine (congrFun (shapeCast_self _ shapeCasts_S256x256_S256x256) (ix2 p q)).trans ?_
  refine (addf_apply _ _ _).trans ?_
  rw [h60, EReal.coe_add]
  refine congrArg (fun z => ((c : ℝ) : EReal) + z) ?_
  refine (Ideal.multiReduction_add_single _ _ reduces_S17x256x256_S256x256 _ _ (ix2 p q)).trans ?_
  rw [← coe_sum]
  refine Finset.sum_congr rfl fun (d : Fin 17) _ => ?_
  have hl : reduces_S17x256x256_S256x256.lift (ix2 p q) d = ix3 d p q := by
    funext a
    match a with
    | ⟨0, _⟩ => rfl
    | ⟨1, _⟩ => rfl
    | ⟨2, _⟩ => rfl
  refine (congrArg _ hl).trans ?_
  simp only [mulf_apply, absf_apply, subf_apply, addf_apply, sqrt_apply, broadcast_apply, dropUnit_apply, h29, h31]
  rw [rotRow_apply v29 d p q, rotCol_apply v29 d p q, mask_apply d p q, h29 d (Eik.nx p) q, h29 d p (Eik.nx q)]
  exact entry_coe _ _ _ _ _

/-- One tile's step on real data: the plane plus the tile's masked row sums. -/
theorem accStep_lift (s : RSlab) (a : RPlane) :
    accStep (F := Ideal) (liftSlab s) (liftPlane a) = liftPlane (fun h w => a h w + ∑ d : Fin 17, termS s d h w) := by
  funext y
  obtain ⟨p, q, rfl⟩ : ∃ (p q : Fin 256), y = ix2 p q := ⟨y 0, y 1, eq_ix2 y⟩
  show k0_pay4 (k0_pay3 (loRows (liftSlab s))) (hiRows (liftSlab s)) (liftPlane a) (ix2 p q) = _
  -- the two row ranges of a real slab are rows d and d + 1; the plane's entry is a p q
  refine (pay4_apply _ _ _ p q (fun d h w => s d.castSucc h w) (fun d h w => s d.succ h w) (a p q)
    (fun d h w => lo_apply s d h w) (fun d h w => rfl) rfl).trans ?_
  rfl

/-- The zero payload is the zero plane. -/
theorem zero_lift : k0_pay2 (F := Ideal) = liftPlane (fun _ _ => 0) := by
  show shapeCast S256x256 (broadcast S256x256 (Scalar.ofBits (F := Ideal) .f32 0x00000000#32)) shapeCasts_S256x256_S256x256 = _
  rw [shapeCast_self]
  funext y
  show Ideal.ofBits .f32 0x00000000#32 = ((0 : ℝ) : EReal)
  rw [Ideal.ofBits_zero_f32, EReal.coe_zero]

/-- The total of a real plane: the sum of all its entries, as the one entry of the output block. -/
theorem total_lift (a : RPlane) :
    k0_pay1 (k0_pay5 (F := Ideal) (liftPlane a)) = fun _ => ((∑ h : Fin 256, ∑ w : Fin 256, a h w : ℝ) : EReal) := by
  funext y
  obtain ⟨u, i, j, rfl⟩ : ∃ (u i j : Fin 1), y = ix3 u i j := ⟨y 0, y 1, y 2, eq_ix3 y⟩
  show shapeCast S1x1x1 (shapeCast S1x1 (multiReduction (F := Ideal) .add [0] S1
      (shapeCast S256x1 (multiReduction (F := Ideal) .add [1] S256 (liftPlane a) 0x00000000#32 reduces_S256x256_S256 (.inl rfl) rfl)
        shapeCasts_S256_S256x1) 0x00000000#32 reduces_S256x1_S1 (.inl rfl) rfl) shapeCasts_S1_S1x1) shapeCasts_S1x1_S1x1x1 (ix3 u i j) = _
  -- the two outer casts only add unit axes; the inner sums are over rows, then over each row's columns
  refine (shapeCast_ab_1ab_apply _ shapeCasts_S1x1_S1x1x1 u i j).trans ?_
  refine (shapeCast_a_1a_apply _ shapeCasts_S1_S1x1 i j).trans ?_
  refine (colSum_apply _ rfl j).trans ?_
  have e : ∀ k : Fin 256, shapeCast S256x1 (multiReduction (F := Ideal) .add [1] S256 (liftPlane a) 0x00000000#32 reduces_S256x256_S256 (.inl rfl) rfl)
      shapeCasts_S256_S256x1 (ix2 k j) = ((∑ w : Fin 256, a k w : ℝ) : EReal) := fun k => by
    refine (column_apply _ shapeCasts_S256_S256x1 k j).trans ?_
    refine (rowSum_apply _ rfl k).trans ?_
    exact coe_sum Finset.univ (fun w => a k w)
  refine (Finset.sum_congr rfl fun k _ => e k).trans ?_
  exact coe_sum Finset.univ (fun k => ∑ w : Fin 256, a k w)

end Cert.KernelIdeal.KV

end
-- ==== Proof.KVal.lean ====
import proofs.«407983_j88124138979534_4_alg».proof.Proof.KDefs
import proofs.«407983_j88124138979534_4_alg».proof.Proof.KPay
import Idealize.ShloMosaic.PureOps.Ideal.Laws
import Idealize.ShloMosaic.Lib.ValueIdx
import Idealize.ShloMosaic.Lib.ValueLayout
import Idealize.ShloMosaic.Lib.Pipeline.Value

/-!
The kernel's result at the exact floats, on an argument array of real numbers, is the kernel's arrangement
of the loss (Eik.Kcanon) as a real number: every operation of the body and of the host tail read at an index.
-/

noncomputable section

namespace Cert.KernelIdeal.KV

open Idealize.ShloMosaic Idealize.ShloMosaic.TcCoe Idealize.SL.Sem Cert.KernelIdeal Cert.KernelIdeal.Gen
open Idealize.ShloMosaic.ValueIdx

/-- The real slab of tile k of batch b: depth rows 17 k .. 17 k + 17 of the field. -/
private def xs (x : Eik.Field) (b : Fin 2) (k : Fin 15) : RSlab := fun d h w => x b (Eik.dep k d) h w

/-- The slab of a lifted field is the lifted real slab. -/
private theorem slab_lift (x : Eik.Field) (b : Fin 2) (k : Fin 15) :
    slab (F := Ideal) (Eik.lift x) b k = liftSlab (xs x b k) := by
  funext y
  rfl

/-- The summand of the real slab's row d is the kernel's summand at depths 17 k + d and 17 k + d + 1. -/
private theorem termS_xs (x : Eik.Field) (b : Fin 2) (k : Fin 15) (d : Fin 17) (h w : Fin 256) :
    termS (xs x b k) d h w = Eik.termK x b (Eik.dep k d.castSucc) (Eik.dep k d.succ) h w := rfl

/-- The real accumulator plane after tile k of batch b: zero plus the masked row sums of tiles 0 .. k. -/
private def accR (x : Eik.Field) (b : Fin 2) : ℕ → RPlane
  | 0 => fun h w => 0 + ∑ d : Fin 17, termS (xs x b (Fin.ofNat 15 0)) d h w
  | k + 1 => fun h w => accR x b k h w + ∑ d : Fin 17, termS (xs x b (Fin.ofNat 15 (k + 1))) d h w

/-- The accumulator of a lifted field is the lifted real accumulator, tile by tile. -/
private theorem accRow_lift (x : Eik.Field) (b : Fin 2) (k : ℕ) :
    accRow (F := Ideal) (Eik.lift x) b k = liftPlane (accR x b k) := by
  induction k with
  | zero =>
    show accStep (F := Ideal) (slab (F := Ideal) (Eik.lift x) b (Fin.ofNat 15 0)) (k0_pay2 (F := Ideal)) = _
    rw [slab_lift, zero_lift, accStep_lift]
    rfl
  | succ k ih =>
    show accStep (F := Ideal) (slab (F := Ideal) (Eik.lift x) b (Fin.ofNat 15 (k + 1))) (accRow (F := Ideal) (Eik.lift x) b k) = _
    rw [ih, slab_lift, accStep_lift]
    rfl

/-- The real accumulator after tile n is the sum over tiles 0 .. n of the tiles' row sums. -/
private theorem accR_eq_range (x : Eik.Field) (b : Fin 2) (n : ℕ) (h w : Fin 256) :
    accR x b n h w = ∑ j ∈ Finset.range (n + 1), ∑ d : Fin 17, termS (xs x b (Fin.ofNat 15 j)) d h w := by
  induction n with
  | zero => simp [accR]
  | succ n ih => rw [Finset.sum_range_succ, ← ih]; rfl

/-- After the last tile: the sum over all 15 tiles and the 17 rows of each of the kernel's summand. -/
private theorem accR_last (x : Eik.Field) (b : Fin 2) (h w : Fin 256) :
    accR x b 14 h w
      = ∑ k : Fin 15, ∑ d : Fin 17, Eik.termK x b (Eik.dep k d.castSucc) (Eik.dep k d.succ) h w := by
  rw [accR_eq_range, ← Fin.sum_univ_eq_sum_range (fun j => ∑ d : Fin 17, termS (xs x b (Fin.ofNat 15 j)) d h w) 15]
  refine Finset.sum_congr rfl fun k _ => ?_
  have hk : Fin.ofNat 15 k.val = k := Fin.ext (Nat.mod_eq_of_lt k.isLt)
  rw [hk]
  exact Finset.sum_congr rfl fun d _ => termS_xs x b k d h w

/-- The batch's output block after the last tile: the total of the real accumulator. -/
private theorem outAt_lift (x : Eik.Field) (b : Fin 2) :
    outAt (F := Ideal) (Eik.lift x) b 14
      = fun _ => ((∑ h : Fin 256, ∑ w : Fin 256, accR x b 14 h w : ℝ) : EReal) := by
  unfold outAt
  rw [accRow_lift, total_lift]

/-- The output array's two entries are indexed by the batch. -/
private def idxEquiv : S2x1x1.Idx ≃ Fin 2 where
  toFun j := ⟨(j 0).val, (j 0).isLt⟩
  invFun b := ix3 b (0 : Fin 1) (0 : Fin 1)
  left_inv j := by
    funext a
    match a with
    | ⟨0, _⟩ => rfl
    | ⟨1, _⟩ =>
      have h1 : (j 1).val < 1 := (j 1).isLt
      exact Fin.ext (by show 0 = (j 1).val; omega)
    | ⟨2, _⟩ =>
      have h2 : (j 2).val < 1 := (j 2).isLt
      exact Fin.ext (by show 0 = (j 2).val; omega)
  right_inv b := rfl

/-- A finite sum of real numbers read as extended reals is the real sum read as an extended real. -/
private theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The pattern 0x477E0100 denotes 65025 = 255 * 255. -/
private theorem ofBits_65025 : Ideal.ofBits .f32 0x477E0100#32 = ((65025 : ℝ) : EReal) := by
  simp [Ideal.ofBits, Ideal.ieee, -EReal.coe_mul]; norm_num

/-- The pattern 0x43FF0000 denotes 510 = 2 * 255. -/
private theorem ofBits_510 : Ideal.ofBits .f32 0x43FF0000#32 = ((510 : ℝ) : EReal) := by
  simp [Ideal.ofBits, Ideal.ieee, -EReal.coe_mul]; norm_num

/-- On a field of real numbers the program's result is the real number Kcanon. -/
theorem result_eq (x : Eik.Field) :
    result (F := Ideal) (Eik.lift x) = fun _ => ((Eik.Kcanon x : ℝ) : EReal) := by
  funext i
  unfold result
  simp only [Host.divf, Host.reduceAdd, Ideal.hostReduceAdd_def, Ideal.hostDivf_def, constant_apply]
  rw [Ideal.hostReduceAdd_total reducesTo_S2x1x1_S_d0_1_2 (fun b => b.elim0)]
  rw [Ideal.ofBits_zero_f32, ofBits_65025, ofBits_510, zero_add]
  have hsum : ∑ j : S2x1x1.Idx, outArr (F := Ideal) (Eik.lift x) j
      = ((∑ b : Fin 2, ∑ h : Fin 256, ∑ w : Fin 256, ∑ k : Fin 15, ∑ d : Fin 17,
          Eik.termK x b (Eik.dep k d.castSucc) (Eik.dep k d.succ) h w : ℝ) : EReal) := by
    rw [← Equiv.sum_comp idxEquiv.symm, ← coe_sum]
    refine Finset.sum_congr rfl fun b _ => ?_
    show outAt (F := Ideal) (Eik.lift x) b 14 _ = _
    rw [outAt_lift]
    simp only [accR_last]
  rw [hsum, Ideal.div_coe (by norm_num : (65025 : ℝ) ≠ 0), Ideal.div_coe (by norm_num : (510 : ℝ) ≠ 0),
    ← EReal.coe_mul, ← EReal.coe_mul]
  congr 1
  unfold Eik.Kcanon
  ring

end Cert.KernelIdeal.KV

end
-- ==== Proof.RefRun.lean ====
import proofs.«407983_j88124138979534_4_alg».proof.Defs
import proofs.«407983_j88124138979534_4_alg».proof.Proof.Gen.ReferenceIdeal
import proofs.«407983_j88124138979534_4_alg».proof.Proof.Gen.ReferenceIdeal.Run
import proofs.«407983_j88124138979534_4_alg».proof.Proof.Gen.ReferenceIdeal.Read

/-! The reference's run and its stages read at an index, gathered for the modules that state the reference's value. -/
-- ==== Proof.RefVal.lean ====
import proofs.«407983_j88124138979534_4_alg».proof.Proof.RefRun
import proofs.«407983_j88124138979534_4_alg».proof.Proof.Spec
import Idealize.ShloMosaic.PureOps.Ideal.Laws
import Idealize.ShloMosaic.Lib.ValueIdx
import Idealize.ShloMosaic.Lib.Pipeline.Value

/-!
The reference's result at the exact floats, on an argument array of real numbers, is the reference's
arrangement of the loss (Eik.Rcanon) as a real number: its stages read at an index one after the other.
-/

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-
The reshape drops the unit axis, so the reshaped array at (b, d, h, w) is the field at (b, d, h, w); the four
slices read it at (b, d, h, w), (b, d+1, h, w), (b, d, h+1, w), (b, d, h, w+1) for d, h, w below 255.  Every
pointwise stage of real entries is a real entry (differences, products, sums; the root of a sum of squares, which
is not negative; the maximum of a number and its negative, which is its absolute value), so the entry at
(b, d, h, w) of the last pointwise stage is the real number termR x b d h w.  The sum over the index set of
shape [2, 255, 255, 255] is the fourfold sum over the coordinates, the sum of real entries is the real sum, and
the quotient by the real 33162750 is the real quotient.
-/

/-! ### The constants the reference spells -/

/-- The pattern 0x43800000 is 256. -/
private theorem ofBits_256 : Ideal.ofBits .f32 0x43800000#32 = ((256 : ℝ) : EReal) := by
  simp [Ideal.ofBits, Ideal.ieee, -EReal.coe_mul]; norm_num

/-- The pattern 0x3F800000 is 1. -/
private theorem ofBits_one : Ideal.ofBits .f32 0x3F800000#32 = ((1 : ℝ) : EReal) := by
  simp [Ideal.ofBits, Ideal.ieee, -EReal.coe_mul]; norm_num

/-- The pattern 0x4BFD02FF is 33162750 = 2 * 255^3 (it is below 2^25 and even, so a float). -/
private theorem ofBits_count : Ideal.ofBits .f32 0x4BFD02FF#32 = ((33162750 : ℝ) : EReal) := by
  simp [Ideal.ofBits, Ideal.ieee, -EReal.coe_mul]; norm_num

/-! ### Real arithmetic inside the extended reals -/

/-- The maximum of a real and its negative is its absolute value. -/
private theorem max_neg_coe (r : ℝ) : max (r : EReal) (-(r : EReal)) = ((|r| : ℝ) : EReal) := by
  rw [← EReal.coe_neg, abs_eq_max_neg]
  exact (Monotone.map_max (fun _ _ h => EReal.coe_le_coe_iff.mpr h)).symm

/-- The root of a real that is not negative is the real root. -/
private theorem sqrt_coe_nonneg {r : ℝ} (h : 0 ≤ r) : Ideal.sqrt (r : EReal) = ((Real.sqrt r : ℝ) : EReal) := by
  rw [Ideal.sqrt_coe, if_neg (not_lt.mpr h)]

/-- A finite sum of reals, taken in the extended reals, is the real sum. -/
private theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### The index set of a rank-4 shape is the product of its coordinate ranges -/

private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
private theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ### The layout stages on a field of reals -/

/-- The lifted field at an index whose coordinates 0, 2, 3, 4 are b, d, h, w. -/
private theorem lift_at (x : Eik.Field) (i : S2x1x256x256x256.Idx) (b : Fin 2) (d h w : Fin 256)
    (h0 : (i 0).val = b.val) (h2 : (i 2).val = d.val) (h3 : (i 3).val = h.val) (h4 : (i 4).val = w.val) :
    Eik.lift x i = ((x b d h w : ℝ) : EReal) := by
  have e0 : i 0 = b := Fin.ext h0
  have e2 : i 2 = d := Fin.ext h2
  have e3 : i 3 = h := Fin.ext h3
  have e4 : i 4 = w := Fin.ext h4
  show ((x (i 0) (i 2) (i 3) (i 4) : ℝ) : EReal) = _
  rw [e0, e2, e3, e4]

/-- The reshaped array at an index with coordinates b, d, h, w is the field there: the row-major position
    ((b * 256 + d) * 256 + h) * 256 + w splits back into (b, 0, d, h, w). -/
private theorem v0_at (x : Eik.Field) (j : S2x256x256x256.Idx) (b : Fin 2) (d h w : Fin 256)
    (h0 : (j 0).val = b.val) (h1 : (j 1).val = d.val) (h2 : (j 2).val = h.val) (h3 : (j 3).val = w.val) :
    Read.val_main_v0 (F := Ideal) (Eik.lift x) j = ((x b d h w : ℝ) : EReal) := by
  have hb : b.val < 2 := b.isLt
  have hd : d.val < 256 := d.isLt
  have hh : h.val < 256 := h.isLt
  have hw : w.val < 256 := w.isLt
  rw [Read.val_main_v0_apply]
  refine lift_at x _ b d h w ?_ ?_ ?_ ?_
  · show ((((j 0).val * 256 + (j 1).val) * 256 + (j 2).val) * 256 + (j 3).val) / 16777216 = b.val
    rw [h0, h1, h2, h3]; omega
  · show ((((j 0).val * 256 + (j 1).val) * 256 + (j 2).val) * 256 + (j 3).val) / 65536 % 256 = d.val
    rw [h0, h1, h2, h3]; omega
  · show ((((j 0).val * 256 + (j 1).val) * 256 + (j 2).val) * 256 + (j 3).val) / 256 % 256 = h.val
    rw [h0, h1, h2, h3]; omega
  · show ((((j 0).val * 256 + (j 1).val) * 256 + (j 2).val) * 256 + (j 3).val) % 256 = w.val
    rw [h0, h1, h2, h3]; omega

/-- The slice from (0, 0, 0, 0): the field at (b, d, h, w). -/
private theorem v1_at (x : Eik.Field) (b : Fin 2) (d h w : Fin 255) :
    Read.val_main_v1 (F := Ideal) (Eik.lift x) (ix4 b d h w)
      = ((x b (Eik.emb d) (Eik.emb h) (Eik.emb w) : ℝ) : EReal) := by
  rw [Read.val_main_v1_apply]
  exact v0_at x _ b (Eik.emb d) (Eik.emb h) (Eik.emb w) rfl rfl rfl rfl

/-- The slice from (0, 1, 0, 0): the field at (b, d + 1, h, w). -/
private theorem v2_at (x : Eik.Field) (b : Fin 2) (d h w : Fin 255) :
    Read.val_main_v2 (F := Ideal) (Eik.lift x) (ix4 b d h w)
      = ((x b (Eik.embS d) (Eik.emb h) (Eik.emb w) : ℝ) : EReal) := by
  rw [Read.val_main_v2_apply]
  exact v0_at x _ b (Eik.embS d) (Eik.emb h) (Eik.emb w) rfl (Nat.add_comm 1 d.val) rfl rfl

/-- The slice from (0, 0, 1, 0): the field at (b, d, h + 1, w). -/
private theorem v6_at (x : Eik.Field) (b : Fin 2) (d h w : Fin 255) :
    Read.val_main_v6 (F := Ideal) (Eik.lift x) (ix4 b d h w)
      = ((x b (Eik.emb d) (Eik.embS h) (Eik.emb w) : ℝ) : EReal) := by
  rw [Read.val_main_v6_apply]
  exact v0_at x _ b (Eik.emb d) (Eik.embS h) (Eik.emb w) rfl rfl (Nat.add_comm 1 h.val) rfl

/-- The slice from (0, 0, 0, 1): the field at (b, d, h, w + 1). -/
private theorem v10_at (x : Eik.Field) (b : Fin 2) (d h w : Fin 255) :
    Read.val_main_v10 (F := Ideal) (Eik.lift x) (ix4 b d h w)
      = ((x b (Eik.emb d) (Eik.emb h) (Eik.embS w) : ℝ) : EReal) := by
  rw [Read.val_main_v10_apply]
  exact v0_at x _ b (Eik.emb d) (Eik.emb h) (Eik.embS w) rfl rfl rfl (Nat.add_comm 1 w.val)

/-! ### The pointwise stages -/

/-- A scaled forward difference of reals, squared, is real. -/
private theorem sq_scaled (p q : ℝ) :
    FloatOps.mulf (F := Ideal) (φ := .f32)
        (FloatOps.mulf (FloatOps.subf ((p : ℝ) : EReal) ((q : ℝ) : EReal)) (FloatOps.ofBits .f32 0x43800000#32))
        (FloatOps.mulf (FloatOps.subf ((p : ℝ) : EReal) ((q : ℝ) : EReal)) (FloatOps.ofBits .f32 0x43800000#32))
      = ((((p - q) * 256) * ((p - q) * 256) : ℝ) : EReal) := by
  simp only [Ideal.mulf_def, Ideal.subf_def, Ideal.ofBits_def, ofBits_256]
  rw [← EReal.coe_sub, ← EReal.coe_mul, ← EReal.coe_mul]

/-- The entry of the last pointwise stage at (b, d, h, w) is the reference's summand. -/
private theorem v22_at (x : Eik.Field) (b : Fin 2) (d h w : Fin 255) :
    Read.val_main_v22 (F := Ideal) (Eik.lift x) (ix4 b d h w) = ((Eik.termR x b d h w : ℝ) : EReal) := by
  rw [Read.val_main_v22_apply, Read.val_main_v21_apply, Read.val_main_v19_apply, Read.val_main_v18_apply,
    Read.val_main_v16_apply, Read.val_main_v14_apply, Read.val_main_v15_apply, Read.val_main_v17_apply,
    Read.val_main_v5_apply, Read.val_main_v9_apply, Read.val_main_v13_apply,
    Read.val_main_v3_apply, Read.val_main_v7_apply, Read.val_main_v11_apply,
    Read.val_main_v4_apply, Read.val_main_v8_apply, Read.val_main_v12_apply, Read.val_main_v20_apply,
    Read.val_main_cst_apply, Read.val_main_cst_0_apply, Read.val_main_cst_1_apply, Read.val_main_cst_2_apply,
    v1_at, v2_at, v6_at, v10_at, sq_scaled, sq_scaled, sq_scaled]
  simp only [Ideal.addf_def, Ideal.subf_def, Ideal.hostUnary_sqrt_def, Ideal.hostAbsf_def, Ideal.absf_def,
    Ideal.ofBits_def, ofBits_one]
  rw [← EReal.coe_add, ← EReal.coe_add,
    sqrt_coe_nonneg (add_nonneg (add_nonneg (mul_self_nonneg _) (mul_self_nonneg _)) (mul_self_nonneg _)),
    ← EReal.coe_sub, max_neg_coe]
  rfl

/-! ### The sum and the quotient -/

/-- On a field of real numbers the reference's last stage is the real number Rcanon. -/
theorem ref_eq (x : Eik.Field) :
    Cert.ReferenceIdeal.Read.val_main_v24 (F := Ideal) (Eik.lift x) = fun _ => ((Eik.Rcanon x : ℝ) : EReal) := by
  funext i
  have hsum : ∑ j : S2x255x255x255.Idx, Read.val_main_v22 (F := Ideal) (Eik.lift x) j
      = ((∑ b : Fin 2, ∑ d : Fin 255, ∑ h : Fin 255, ∑ w : Fin 255, Eik.termR x b d h w : ℝ) : EReal) := by
    rw [sum_idx4]
    simp only [v22_at, coe_sum]
  rw [Read.val_main_v24_apply, Read.val_main_v23_apply, Read.val_main_cst_3_apply, Read.val_main_cst_4_apply, hsum]
  simp only [Ideal.hostDivf_def, Ideal.ofBits_def, Ideal.ofBits_zero_f32, ofBits_count, zero_add]
  rw [Ideal.div_coe (by norm_num), ← EReal.coe_mul, mul_one_div]
  rfl

end Cert.ReferenceIdeal.RefValue

end
-- ==== Proof.Finite.lean ====
import proofs.«407983_j88124138979534_4_alg».proof.Defs
import proofs.«407983_j88124138979534_4_alg».proof.Proof.Gen.Pre_finite_inputs
import proofs.«407983_j88124138979534_4_alg».proof.Proof.Spec
import Idealize.ShloMosaic.Lib.ReduceAll
import Idealize.ShloMosaic.Lib.ValueIdx

/-!
Under the precondition every entry of the argument array is a real number: the array is the lift of a real field.
-/

noncomputable section

namespace Cert.Proof.Finite

open Idealize.ShloMosaic Idealize.ShloMosaic.TcCoe Idealize.SL.Sem
open Idealize.ShloMosaic.ValueIdx

/-- The rank-0 shape has exactly one index: there is no axis to choose a coordinate on. -/
private instance : Subsingleton Cert.Pre_finite_inputs.S_.Idx := ⟨fun a b => funext fun d => d.elim0⟩

/-- An extended real whose absolute value max a (-a) lies below +∞ is neither infinity, so it is the
    coercion of its own real part. -/
private theorem coe_toReal_of_abs_lt_top (a : EReal) (h : max a (-a) < ⊤) : a = ((a.toReal : ℝ) : EReal) := by
  induction a using EReal.rec with
  | bot => simp at h
  | coe r => rfl
  | top => simp at h

/-- The ordered less-than comparison yields the word 1 only when the strict inequality holds. -/
private theorem lt_of_cmp_olt {x y : EReal} (h : Ideal.cmp .olt x y = 1#1) : x < y := by
  unfold Ideal.cmp at h
  by_contra hn
  simp [hn] at h

/-- An array of extended reals on which the printed finiteness predicate is all ones is a field of reals. -/
theorem exists_field [Cert.Pre_finite_inputs.Facts] (W : (⟨5, ![2, 1, 256, 256, 256]⟩ : Shape).Idx → EReal)
    (h : Cert.Pre_finite_inputs.fn (F := Ideal) W = (fun _ => 1#1)) : ∃ x : Eik.Field, W = Eik.lift x := by
  -- The predicate's single result word is 1.
  have h0 := congrFun h ValueIdx.ix0
  dsimp only [Cert.Pre_finite_inputs.fn] at h0
  -- A conjunction over all five axes that is 1 had a 1 at every index of the compared array.
  have hall := fun i => Host.reduce_andi_all _ _ _ _ _ h0 i
  -- At each index the comparison is |W i| < +∞: the constant's bit pattern denotes +∞.
  have hfin : ∀ i, max (W i) (-(W i)) < ⊤ := by
    intro i
    have hi := hall i
    have hc : Ideal.cmp .olt (max (W i) (-(W i))) (Ideal.ofBits .f32 0x7F800000#32) = 1#1 := hi
    have := lt_of_cmp_olt hc
    simpa [Ideal.ofBits, Ideal.ieee] using this
  -- The field of real parts; the second axis has extent one, so its coordinate is 0.
  refine ⟨fun b d hh w => (W (ix5 b 0 d hh w)).toReal, funext fun i => ?_⟩
  have h1 : i 1 = (0 : Fin 1) := Fin.ext (by have := (i 1).isLt; simp at this ⊢; omega)
  have hi : ix5 (i 0) (0 : Fin 1) (i 2) (i 3) (i 4) = i := by
    have := eq_ix5 i
    rw [h1] at this
    exact this.symm
  exact (coe_toReal_of_abs_lt_top (W i) (hfin i)).trans
    (congrArg (fun j => (((W j).toReal : ℝ) : EReal)) hi.symm)

end Cert.Proof.Finite

end
-- ==== Proof.lean ====
/-
  The eikonal loss of a [2, 1, 256, 256, 256] field, computed by a kernel that streams each batch row through a
  two-slot ring of 18-row slabs by its own transfers and accumulates masked plane sums, against the plain mean of
  | |256 * forward differences| - 1 | over the interior points.

  The frames of the kernel's program, at the word level and at the exact floats, are the frame run of its one
  pipeline under the ring's point-indexed invariant (one text, generic in the float instance, laid out at both
  programs); the reference's frame is its straight-line run.  The ideal pass rewrote nothing, so there is nothing to
  preserve.  For the value claim the kernel's run names its result as one function of the argument array, and under
  the precondition the array is a field of real numbers, on which that function is the kernel's arrangement of the
  loss and the reference's last stage is the reference's arrangement; the two arrangements are one real number
  (the scale comes out of the root, the masked-out terms vanish, the tiles enumerate the interior depths, and
  65025 * 510 = 33162750).
-/
import proofs.«407983_j88124138979534_4_alg».proof.Defs
import proofs.«407983_j88124138979534_4_alg».proof.Proof.Gen.Kernel
import proofs.«407983_j88124138979534_4_alg».proof.Proof.Gen.KernelIdeal
import proofs.«407983_j88124138979534_4_alg».proof.Proof.Gen.ReferenceIdeal
import proofs.«407983_j88124138979534_4_alg».proof.Proof.Gen.Pre_finite_inputs
import proofs.«407983_j88124138979534_4_alg».proof.Proof.Bits.Data
import proofs.«407983_j88124138979534_4_alg».proof.Proof.KOut
import proofs.«407983_j88124138979534_4_alg».proof.Proof.KVal
import proofs.«407983_j88124138979534_4_alg».proof.Proof.RefRun
import proofs.«407983_j88124138979534_4_alg».proof.Proof.RefVal
import proofs.«407983_j88124138979534_4_alg».proof.Proof.Finite
import proofs.«407983_j88124138979534_4_alg».proof.Proof.Spec
import Idealize.ShloMosaic.Adequacy
import Idealize.ShloMosaic.Init

noncomputable section

namespace Cert.Proof

open Idealize.ShloMosaic Idealize.SL.Sem

/-- The word-level program runs and leaves its argument unchanged. -/
theorem frame_p : Cert.frame_Kernel := fun m ρ _ => Cert.Kernel.KF.frame (F := Bits) m ρ

/-- So does its reading at the exact floats. -/
theorem frame_pi : Cert.frame_KernelIdeal := fun m ρ _ => Cert.KernelIdeal.KF.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end at the same extended real: on a field of real numbers the kernel's result is the kernel's
    arrangement of the loss, the reference's the reference's, and the two arrangements are equal. -/
theorem algebraic : Cert.algebraic_KernelIdeal_ReferenceIdeal := by
  intro m ρ m' ρ' hpre hagree
  refine ⟨fun c => Cert.KernelIdeal.KV.result (F := Ideal) (m ((c.tc : Thread Cert.KernelIdeal.nD Cert.KernelIdeal.τ).loc Cert.KernelIdeal.main_arg0)),
    Cert.KernelIdeal.KF.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨x, hx⟩ := Cert.Proof.Finite.exists_field _ (hpre c)
  rw [Cert.ReferenceIdeal.Read.val_main_v24_eq, hagree c]
  show Cert.ReferenceIdeal.Read.val_main_v24 (F := Ideal) _ = Cert.KernelIdeal.KV.result (F := Ideal) _
  rw [hx, Cert.ReferenceIdeal.RefValue.ref_eq, Cert.KernelIdeal.KV.result_eq, Eik.canon_eq]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
